-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S100000x64 : Shape := ⟨2, ![100000, 64]⟩
abbrev S512x64 : Shape := ⟨2, ![512, 64]⟩
abbrev S64 : Shape := ⟨1, ![64]⟩
abbrev S2400000 : Shape := ⟨1, ![2400000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S2400000 : S_.BroadcastsInDim S2400000 (![] : Fin 0 → Fin S2400000.rank)
  reducesTo_S2400000_S_d0 : S2400000.ReducesTo [0] S_

variable [Facts]

def fn_part1 {F : FTy → Type} [FloatOps F] (main_arg6 : FVec F S2400000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2400000 .f32 := Host.absf main_arg6
  let main_cst_6 : FVec F S_ .f32 := constant S_ .f32 0x7F800000#32
  let main_v20 : FVec F S2400000 .f32 := broadcastInDim S2400000 ![] bcast_S_S2400000 main_cst_6
  let main_v21 : IVec S2400000 1 := cmpf .olt main_v19 main_v20
  let main_c_7 : IVec S_ 1 := constantI S_ 1 1#1
  let main_v22 : IVec S_ 1 := (fun x v => Host.reduce IntOp.andi x v reducesTo_S2400000_S_d0 h_S_) main_v21 main_c_7
  let main_v23 : IVec S_ 1 := andi main_v18 main_v22
  main_v23

def fn {F : FTy → Type} [FloatOps F] (main_arg0 : FVec F S50000x512 .f32) (main_arg1 : FVec F S100000x64 .f32) (main_arg2 : FVec F S512x64 .f32) (main_arg3 : FVec F S64 .f32) (main_arg4 : IVec S2400000 32) (main_arg5 : IVec S2400000 32) (main_arg6 : FVec F S2400000 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S50000x512 : Shape := ⟨2, ![50000, 512]⟩
abbrev S100000x64 : Shape := ⟨2, ![100000, 64]⟩
abbrev S512x64 : Shape := ⟨2, ![512, 64]⟩
abbrev S64 : Shape := ⟨1, ![64]⟩
abbrev S2400000 : Shape := ⟨1, ![2400000]⟩
abbrev S1x64 : Shape := ⟨2, ![1, 64]⟩
abbrev S50000x64 : Shape := ⟨2, ![50000, 64]⟩
abbrev S2000x512 : Shape := ⟨2, ![2000, 512]⟩
abbrev S2000x64 : Shape := ⟨2, ![2000, 64]⟩
abbrev S150000x64 : Shape := ⟨2, ![150000, 64]⟩
abbrev S6000x64 : Shape := ⟨2, ![6000, 64]⟩
abbrev S6000 : Shape := ⟨1, ![6000]⟩
abbrev S6000x1 : Shape := ⟨2, ![6000, 1]⟩
abbrev S_ : Shape := ⟨0, ![]⟩
abbrev S2400000x1 : Shape := ⟨2, ![2400000, 1]⟩
abbrev S2400000x64 : Shape := ⟨2, ![2400000, 64]⟩
abbrev S19200x64 : Shape := ⟨2, ![19200, 64]⟩
abbrev S19200x1 : Shape := ⟨2, ![19200, 1]⟩

abbrev nBuf : Space → Nat
  | .hbm => 64
  | .vmem => 46
  | .smem => 0
  | _ => 0

abbrev bufTy : (tb : Table) → Fin (tcTables nBuf tb) → BufTy
  | .hbm, ⟨0, _⟩ => ⟨S50000x512, .f32⟩
  | .hbm, ⟨1, _⟩ => ⟨S100000x64, .f32⟩
  | .hbm, ⟨2, _⟩ => ⟨S512x64, .f32⟩
  | .hbm, ⟨3, _⟩ => ⟨S64, .f32⟩
  | .hbm, ⟨4, _⟩ => ⟨S2400000, .i32⟩
  | .hbm, ⟨5, _⟩ => ⟨S2400000, .i32⟩
  | .hbm, ⟨6, _⟩ => ⟨S2400000, .f32⟩
  | .hbm, ⟨7, _⟩ => ⟨S1x64, .f32⟩
  | .hbm, ⟨8, _⟩ => ⟨S50000x64, .f32⟩
  | .hbm, ⟨9, _⟩ => ⟨S150000x64, .f32⟩
  | .hbm, ⟨10, _⟩ => ⟨S150000x64, .f32⟩
  | .hbm, ⟨11, _⟩ => ⟨S_, .i32⟩
  | .hbm, ⟨12, _⟩ => ⟨S2400000, .i32⟩
  | .hbm, ⟨13, _⟩ => ⟨S2400000, .i1⟩
  | .hbm, ⟨14, _⟩ => ⟨S_, .i32⟩
  | .hbm, ⟨15, _⟩ => ⟨S2400000, .i32⟩
  | .hbm, ⟨16, _⟩ => ⟨S2400000, .i32⟩
  | .hbm, ⟨17, _⟩ => ⟨S2400000, .i32⟩
  | .hbm, ⟨18, _⟩ => ⟨S2400000x1, .i32⟩
  | .hbm, ⟨19, _⟩ => ⟨S2400000x64, .f32⟩
  | .hbm, ⟨20, _⟩ => ⟨S2400000x1, .f32⟩
  | .hbm, ⟨21, _⟩ => ⟨S2400000x64, .f32⟩
  | .hbm, ⟨22, _⟩ => ⟨S_, .f32⟩
  | .hbm, ⟨23, _⟩ => ⟨S150000x64, .f32⟩
  | .hbm, ⟨24, _⟩ => ⟨S2400000x1, .i32⟩
  | .hbm, ⟨25, _⟩ => ⟨S150000x64, .f32⟩
  | .hbm, ⟨26, _⟩ => ⟨S150000x64, .f32⟩
  | .hbm, ⟨27, _⟩ => ⟨S_, .i32⟩
  | .hbm, ⟨28, _⟩ => ⟨S2400000, .i32⟩
  | .hbm, ⟨29, _⟩ => ⟨S2400000, .i1⟩
  | .hbm, ⟨30, _⟩ => ⟨S_, .i32⟩
  | .hbm, ⟨31, _⟩ => ⟨S2400000, .i32⟩
  | .hbm, ⟨32, _⟩ => ⟨S2400000, .i32⟩
  | .hbm, ⟨33, _⟩ => ⟨S2400000, .i32⟩
  | .hbm, ⟨34, _⟩ => ⟨S2400000x1, .i32⟩
  | .hbm, ⟨35, _⟩ => ⟨S2400000x64, .f32⟩
  | .hbm, ⟨36, _⟩ => ⟨S2400000x1, .f32⟩
  | .hbm, ⟨37, _⟩ => ⟨S2400000x64, .f32⟩
  | .hbm, ⟨38, _⟩ => ⟨S_, .f32⟩
  | .hbm, ⟨39, _⟩ => ⟨S150000x64, .f32⟩
  | .hbm, ⟨40, _⟩ => ⟨S2400000x1, .i32⟩
  | .hbm, ⟨41, _⟩ => ⟨S150000x64, .f32⟩
  | .hbm, ⟨42, _⟩ => ⟨S150000x64, .f32⟩
  | .hbm, ⟨43, _⟩ => ⟨S_, .i32⟩
  | .hbm, ⟨44, _⟩ => ⟨S2400000, .i32⟩
  | .hbm, ⟨45, _⟩ => ⟨S2400000, .i1⟩
  | .hbm, ⟨46, _⟩ => ⟨S_, .i32⟩
  | .hbm, ⟨47, _⟩ => ⟨S2400000, .i32⟩
  | .hbm, ⟨48, _⟩ => ⟨S2400000, .i32⟩
  | .hbm, ⟨49, _⟩ => ⟨S2400000, .i32⟩
  | .hbm, ⟨50, _⟩ => ⟨S2400000x1, .i32⟩
  | .hbm, ⟨51, _⟩ => ⟨S2400000x64, .f32⟩
  | .hbm, ⟨52, _⟩ => ⟨S2400000x1, .f32⟩
  | .hbm, ⟨53, _⟩ => ⟨S2400000x64, .f32⟩
  | .hbm, ⟨54, _⟩ => ⟨S_, .f32⟩
  | .hbm, ⟨55, _⟩ => ⟨S150000x64, .f32⟩
  | .hbm, ⟨56, _⟩ => ⟨S2400000x1, .i32⟩
  | .hbm, ⟨57, _⟩ => ⟨S150000x64, .f32⟩
  | .hbm, ⟨58, _⟩ => ⟨S150000x64, .f32⟩
  | .hbm, ⟨59, _⟩ => ⟨S_, .f32⟩
  | .hbm, ⟨60, _⟩ => ⟨S150000x64, .f32⟩
  | .hbm, ⟨61, _⟩ => ⟨S150000x64, .f32⟩
  | .hbm, ⟨62, _⟩ => ⟨S100000x64, .f32⟩
  | .hbm, ⟨63, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S6000x64, .f32⟩
  | .local _ .vmem, ⟨7, _⟩ => ⟨S6000x64, .f32⟩
  | .local _ .vmem, ⟨8, _⟩ => ⟨S6000x64, .f32⟩
  | .local _ .vmem, ⟨9, _⟩ => ⟨S6000x64, .f32⟩
  | .local _ .vmem, ⟨10, _⟩ => ⟨S19200x64, .f32⟩
  | .local _ .vmem, ⟨11, _⟩ => ⟨S19200x64, .f32⟩
  | .local _ .vmem, ⟨12, _⟩ => ⟨S19200x1, .f32⟩
  | .local _ .vmem, ⟨13, _⟩ => ⟨S19200x1, .f32⟩
  | .local _ .vmem, ⟨14, _⟩ => ⟨S19200x64, .f32⟩
  | .local _ .vmem, ⟨15, _⟩ => ⟨S19200x64, .f32⟩
  | .local _ .vmem, ⟨16, _⟩ => ⟨S6000x64, .f32⟩
  | .local _ .vmem, ⟨17, _⟩ => ⟨S6000x64, .f32⟩
  | .local _ .vmem, ⟨18, _⟩ => ⟨S6000x64, .f32⟩
  | .local _ .vmem, ⟨19, _⟩ => ⟨S6000x64, .f32⟩
  | .local _ .vmem, ⟨20, _⟩ => ⟨S6000x64, .f32⟩
  | .local _ .vmem, ⟨21, _⟩ => ⟨S6000x64, .f32⟩
  | .local _ .vmem, ⟨22, _⟩ => ⟨S19200x64, .f32⟩
  | .local _ .vmem, ⟨23, _⟩ => ⟨S19200x64, .f32⟩
  | .local _ .vmem, ⟨24, _⟩ => ⟨S19200x1, .f32⟩
  | .local _ .vmem, ⟨25, _⟩ => ⟨S19200x1, .f32⟩
  | .local _ .vmem, ⟨26, _⟩ => ⟨S19200x64, .f32⟩
  | .local _ .vmem, ⟨27, _⟩ => ⟨S19200x64, .f32⟩
  | .local _ .vmem, ⟨28, _⟩ => ⟨S6000x64, .f32⟩
  | .local _ .vmem, ⟨29, _⟩ => ⟨S6000x64, .f32⟩
  | .local _ .vmem, ⟨30, _⟩ => ⟨S6000x64, .f32⟩
  | .local _ .vmem, ⟨31, _⟩ => ⟨S6000x64, .f32⟩
  | .local _ .vmem, ⟨32, _⟩ => ⟨S6000x64, .f32⟩
  | .local _ .vmem, ⟨33, _⟩ => ⟨S6000x64, .f32⟩
  | .local _ .vmem, ⟨34, _⟩ => ⟨S19200x64, .f32⟩
  | .local _ .vmem, ⟨35, _⟩ => ⟨S19200x64, .f32⟩
  | .local _ .vmem, ⟨36, _⟩ => ⟨S19200x1, .f32⟩
  | .local _ .vmem, ⟨37, _⟩ => ⟨S19200x1, .f32⟩
  | .local _ .vmem, ⟨38, _⟩ => ⟨S19200x64, .f32⟩
  | .local _ .vmem, ⟨39, _⟩ => ⟨S19200x64, .f32⟩
  | .local _ .vmem, ⟨40, _⟩ => ⟨S6000x64, .f32⟩
  | .local _ .vmem, ⟨41, _⟩ => ⟨S6000x64, .f32⟩
  | .local _ .vmem, ⟨42, _⟩ => ⟨S6000x64, .f32⟩
  | .local _ .vmem, ⟨43, _⟩ => ⟨S6000x64, .f32⟩
  | .local _ .vmem, ⟨44, _⟩ => ⟨S6000x64, .f32⟩
  | .local _ .vmem, ⟨45, _⟩ => ⟨S6000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg2_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg1_1 : Ref sig .tc := ⟨.vmem, 43, rfl⟩
abbrev cc7_stg2_0 : Ref sig .tc := ⟨.vmem, 44, rfl⟩
abbrev cc7_stg2_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem2_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S19200x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S19200x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S19200x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S19200x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S19200x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S19200x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S19200x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S19200x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S19200x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S6000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  concatenates_S100000x64_S50000x64_S150000x64_d0 : Shape.Concatenates [S100000x64, S50000x64] S150000x64 0
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  reduces_S6000x64_S6000 : S6000x64.Reduces [1] S6000
  shapeCasts_S6000_S6000x1 : S6000.ShapeCasts S6000x1
  broadcasts_S6000x1_S6000x64 : S6000x1.Broadcasts S6000x64
  bcast_S_S2400000 : S_.BroadcastsInDim S2400000 (![] : Fin 0 → Fin S2400000.rank)
  bcast_S2400000_S2400000x1_0 : S2400000.BroadcastsInDim S2400000x1 (![0] : Fin 1 → Fin S2400000x1.rank)
  inb_S19200x64_S19200x64_0_0 : ∀ a, (![0, 0] : Fin 2 → Nat) a + S19200x64.size a ≤ S19200x64.size a
  h_S19200x64 : 0 < S19200x64.numel
  shapeCasts_S19200x64_S19200x64 : S19200x64.ShapeCasts S19200x64
  inb_S19200x1_S19200x1_0_0 : ∀ a, (![0, 0] : Fin 2 → Nat) a + S19200x1.size a ≤ S19200x1.size a
  h_S19200x1 : 0 < S19200x1.numel
  shapeCasts_S19200x1_S19200x1 : S19200x1.ShapeCasts S19200x1
  broadcasts_S19200x1_S19200x64 : S19200x1.Broadcasts S19200x64
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  dot_S2000x512_S512x64_S2000x64_1_0_0_1_n_n_wf : DotDims.WF S2000x512 S512x64 S2000x64 [1] [0] [0] [1] [] []
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S150000x64.size a
  hwx1_1 : ∀ i : grid1.Coords, EltTy.bits .f32 = 32 ∨ (Rect.block (s := S150000x64) S6000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S19200x64.size a ≤ S2400000x64.size a
  hwx2_0 : ∀ i : grid2.Coords, EltTy.bits .f32 = 32 ∨ (Rect.block (s := S2400000x64) S19200x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S19200x1.size a ≤ S2400000x1.size a
  hwx2_1 : ∀ i : grid2.Coords, EltTy.bits .f32 = 32 ∨ (Rect.block (s := S2400000x1) S19200x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S19200x64.size a ≤ S2400000x64.size a
  hwx2_2 : ∀ i : grid2.Coords, EltTy.bits .f32 = 32 ∨ (Rect.block (s := S2400000x64) S19200x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x64.size a ≤ S150000x64.size a
  hwx3_0 : ∀ i : grid3.Coords, EltTy.bits .f32 = 32 ∨ (Rect.block (s := S150000x64) S6000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x64.size a ≤ S150000x64.size a
  hwx3_1 : ∀ i : grid3.Coords, EltTy.bits .f32 = 32 ∨ (Rect.block (s := S150000x64) S6000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x64.size a ≤ S150000x64.size a
  hwx3_2 : ∀ i : grid3.Coords, EltTy.bits .f32 = 32 ∨ (Rect.block (s := S150000x64) S6000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S19200x64.size a ≤ S2400000x64.size a
  hwx4_0 : ∀ i : grid4.Coords, EltTy.bits .f32 = 32 ∨ (Rect.block (s := S2400000x64) S19200x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S19200x1.size a ≤ S2400000x1.size a
  hwx4_1 : ∀ i : grid4.Coords, EltTy.bits .f32 = 32 ∨ (Rect.block (s := S2400000x1) S19200x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S19200x64.size a ≤ S2400000x64.size a
  hwx4_2 : ∀ i : grid4.Coords, EltTy.bits .f32 = 32 ∨ (Rect.block (s := S2400000x64) S19200x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x64.size a ≤ S150000x64.size a
  hwx5_0 : ∀ i : grid5.Coords, EltTy.bits .f32 = 32 ∨ (Rect.block (s := S150000x64) S6000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x64.size a ≤ S150000x64.size a
  hwx5_1 : ∀ i : grid5.Coords, EltTy.bits .f32 = 32 ∨ (Rect.block (s := S150000x64) S6000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6000x64.size a ≤ S150000x64.size a
  hwx5_2 : ∀ i : grid5.Coords, EltTy.bits .f32 = 32 ∨ (Rect.block (s := S150000x64) S6000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S19200x64.size a ≤ S2400000x64.size a
  hwx6_0 : ∀ i : grid6.Coords, EltTy.bits .f32 = 32 ∨ (Rect.block (s := S2400000x64) S19200x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S19200x1.size a ≤ S2400000x1.size a
  hwx6_1 : ∀ i : grid6.Coords, EltTy.bits .f32 = 32 ∨ (Rect.block (s := S2400000x1) S19200x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S19200x64.size a ≤ S2400000x64.size a
  hwx6_2 : ∀ i : grid6.Coords, EltTy.bits .f32 = 32 ∨ (Rect.block (s := S2400000x64) S19200x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6000x64.size a ≤ S150000x64.size a
  hwx7_0 : ∀ i : grid7.Coords, EltTy.bits .f32 = 32 ∨ (Rect.block (s := S150000x64) S6000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6000x64.size a ≤ S150000x64.size a
  hwx7_1 : ∀ i : grid7.Coords, EltTy.bits .f32 = 32 ∨ (Rect.block (s := S150000x64) S6000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S6000x64.size a ≤ S150000x64.size a
  hwx7_2 : ∀ i : grid7.Coords, EltTy.bits .f32 = 32 ∨ (Rect.block (s := S150000x64) S6000x64.size (cc7_transform_2 i) (hinb7_2 i)).WholeWords (EltTy.packing .f32)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S6000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v10) S19200x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S19200x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S19200x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v3) S6000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S6000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S6000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v23) S19200x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S19200x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25) S19200x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v16) S6000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v28) S6000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v29) S6000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v36) S19200x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v37) S19200x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v38) S19200x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v29) S6000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v41) S6000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v42) S6000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x512 : Shape := ⟨2, ![50000, 512]⟩
abbrev S100000x64 : Shape := ⟨2, ![100000, 64]⟩
abbrev S512x64 : Shape := ⟨2, ![512, 64]⟩
abbrev S64 : Shape := ⟨1, ![64]⟩
abbrev S2400000 : Shape := ⟨1, ![2400000]⟩
abbrev S50000x64 : Shape := ⟨2, ![50000, 64]⟩
abbrev S1x64 : Shape := ⟨2, ![1, 64]⟩
abbrev S150000x64 : Shape := ⟨2, ![150000, 64]⟩
abbrev S_ : Shape := ⟨0, ![]⟩
abbrev S150000 : Shape := ⟨1, ![150000]⟩
abbrev S150000x1 : Shape := ⟨2, ![150000, 1]⟩
abbrev S2400000x1 : Shape := ⟨2, ![2400000, 1]⟩
abbrev S2400000x64 : Shape := ⟨2, ![2400000, 64]⟩

abbrev nBuf : Space → Nat
  | .hbm => 78
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S100000x64, .f32⟩
  | .hbm, ⟨2, _⟩ => ⟨S512x64, .f32⟩
  | .hbm, ⟨3, _⟩ => ⟨S64, .f32⟩
  | .hbm, ⟨4, _⟩ => ⟨S2400000, .i32⟩
  | .hbm, ⟨5, _⟩ => ⟨S2400000, .i32⟩
  | .hbm, ⟨6, _⟩ => ⟨S2400000, .f32⟩
  | .hbm, ⟨7, _⟩ => ⟨S50000x64, .f32⟩
  | .hbm, ⟨8, _⟩ => ⟨S1x64, .f32⟩
  | .hbm, ⟨9, _⟩ => ⟨S50000x64, .f32⟩
  | .hbm, ⟨10, _⟩ => ⟨S50000x64, .f32⟩
  | .hbm, ⟨11, _⟩ => ⟨S150000x64, .f32⟩
  | .hbm, ⟨12, _⟩ => ⟨S150000x64, .f32⟩
  | .hbm, ⟨13, _⟩ => ⟨S_, .f32⟩
  | .hbm, ⟨14, _⟩ => ⟨S150000, .f32⟩
  | .hbm, ⟨15, _⟩ => ⟨S150000x1, .f32⟩
  | .hbm, ⟨16, _⟩ => ⟨S150000x1, .f32⟩
  | .hbm, ⟨17, _⟩ => ⟨S_, .f32⟩
  | .hbm, ⟨18, _⟩ => ⟨S150000x1, .f32⟩
  | .hbm, ⟨19, _⟩ => ⟨S150000x1, .f32⟩
  | .hbm, ⟨20, _⟩ => ⟨S150000x64, .f32⟩
  | .hbm, ⟨21, _⟩ => ⟨S150000x64, .f32⟩
  | .hbm, ⟨22, _⟩ => ⟨S_, .i32⟩
  | .hbm, ⟨23, _⟩ => ⟨S2400000, .i32⟩
  | .hbm, ⟨24, _⟩ => ⟨S2400000, .i1⟩
  | .hbm, ⟨25, _⟩ => ⟨S_, .i32⟩
  | .hbm, ⟨26, _⟩ => ⟨S2400000, .i32⟩
  | .hbm, ⟨27, _⟩ => ⟨S2400000, .i32⟩
  | .hbm, ⟨28, _⟩ => ⟨S2400000, .i32⟩
  | .hbm, ⟨29, _⟩ => ⟨S2400000x1, .i32⟩
  | .hbm, ⟨30, _⟩ => ⟨S2400000x64, .f32⟩
  | .hbm, ⟨31, _⟩ => ⟨S2400000x1, .f32⟩
  | .hbm, ⟨32, _⟩ => ⟨S2400000x64, .f32⟩
  | .hbm, ⟨33, _⟩ => ⟨S2400000x64, .f32⟩
  | .hbm, ⟨34, _⟩ => ⟨S_, .f32⟩
  | .hbm, ⟨35, _⟩ => ⟨S150000x64, .f32⟩
  | .hbm, ⟨36, _⟩ => ⟨S2400000x1, .i32⟩
  | .hbm, ⟨37, _⟩ => ⟨S150000x64, .f32⟩
  | .hbm, ⟨38, _⟩ => ⟨S150000x64, .f32⟩
  | .hbm, ⟨39, _⟩ => ⟨S_, .i32⟩
  | .hbm, ⟨40, _⟩ => ⟨S2400000, .i32⟩
  | .hbm, ⟨41, _⟩ => ⟨S2400000, .i1⟩
  | .hbm, ⟨42, _⟩ => ⟨S_, .i32⟩
  | .hbm, ⟨43, _⟩ => ⟨S2400000, .i32⟩
  | .hbm, ⟨44, _⟩ => ⟨S2400000, .i32⟩
  | .hbm, ⟨45, _⟩ => ⟨S2400000, .i32⟩
  | .hbm, ⟨46, _⟩ => ⟨S2400000x1, .i32⟩
  | .hbm, ⟨47, _⟩ => ⟨S2400000x64, .f32⟩
  | .hbm, ⟨48, _⟩ => ⟨S2400000x1, .f32⟩
  | .hbm, ⟨49, _⟩ => ⟨S2400000x64, .f32⟩
  | .hbm, ⟨50, _⟩ => ⟨S2400000x64, .f32⟩
  | .hbm, ⟨51, _⟩ => ⟨S_, .f32⟩
  | .hbm, ⟨52, _⟩ => ⟨S150000x64, .f32⟩
  | .hbm, ⟨53, _⟩ => ⟨S2400000x1, .i32⟩
  | .hbm, ⟨54, _⟩ => ⟨S150000x64, .f32⟩
  | .hbm, ⟨55, _⟩ => ⟨S150000x64, .f32⟩
  | .hbm, ⟨56, _⟩ => ⟨S_, .i32⟩
  | .hbm, ⟨57, _⟩ => ⟨S2400000, .i32⟩
  | .hbm, ⟨58, _⟩ => ⟨S2400000, .i1⟩
  | .hbm, ⟨59, _⟩ => ⟨S_, .i32⟩
  | .hbm, ⟨60, _⟩ => ⟨S2400000, .i32⟩
  | .hbm, ⟨61, _⟩ => ⟨S2400000, .i32⟩
  | .hbm, ⟨62, _⟩ => ⟨S2400000, .i32⟩
  | .hbm, ⟨63, _⟩ => ⟨S2400000x1, .i32⟩
  | .hbm, ⟨64, _⟩ => ⟨S2400000x64, .f32⟩
  | .hbm, ⟨65, _⟩ => ⟨S2400000x1, .f32⟩
  | .hbm, ⟨66, _⟩ => ⟨S2400000x64, .f32⟩
  | .hbm, ⟨67, _⟩ => ⟨S2400000x64, .f32⟩
  | .hbm, ⟨68, _⟩ => ⟨S_, .f32⟩
  | .hbm, ⟨69, _⟩ => ⟨S150000x64, .f32⟩
  | .hbm, ⟨70, _⟩ => ⟨S2400000x1, .i32⟩
  | .hbm, ⟨71, _⟩ => ⟨S150000x64, .f32⟩
  | .hbm, ⟨72, _⟩ => ⟨S150000x64, .f32⟩
  | .hbm, ⟨73, _⟩ => ⟨S_, .f32⟩
  | .hbm, ⟨74, _⟩ => ⟨S150000x64, .f32⟩
  | .hbm, ⟨75, _⟩ => ⟨S150000x64, .f32⟩
  | .hbm, ⟨76, _⟩ => ⟨S100000x64, .f32⟩
  | .hbm, ⟨77, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S100000x64_S50000x64_S150000x64_d0 : Shape.Concatenates [S100000x64, S50000x64] S150000x64 0
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  dot_S50000x512_S512x64_S50000x64_1_0_0_1_n_n_wf : DotDims.WF S50000x512 S512x64 S50000x64 [1] [0] [0] [1] [] []
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1

variable [Facts₀]

def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf

class Facts : Prop extends Facts₀ where

variable [Facts]
-- ==== Proof.Spec.lean ====
/-
  The embedding propagation as functions of whole arrays over the extended reals.

  Items are projected (a matrix product plus a bias row), stacked under the users, and every row is divided by
  the larger of its Euclidean norm and a small constant. Three times the rows named by `cols` are gathered,
  each scaled by its weight in `vals`, and summed into the rows named by `rows`; the four tables (the normalised
  one and the three propagated ones) are added and divided by four, and the result is cut into its user rows and
  its item rows. The gather and the accumulating scatter are taken as given operations of their dimension records:
  nothing here depends on what they compute, only on their being applied to equal operands.
-/
import Idealize.ShloMosaic.Lib.ValueIdx
import Idealize.ShloMosaic.PureOps.Ideal

noncomputable section

namespace Cert.Mgcn

open Idealize.ShloMosaic Idealize.ShloMosaic.ValueIdx

abbrev sFeat : Shape := ⟨2, ![50000, 512]⟩
abbrev sUser : Shape := ⟨2, ![100000, 64]⟩
abbrev sW : Shape := ⟨2, ![512, 64]⟩
abbrev sB : Shape := ⟨1, ![64]⟩
abbrev sNnz : Shape := ⟨1, ![2400000]⟩
abbrev sNnz1 : Shape := ⟨2, ![2400000, 1]⟩
abbrev sNnzD : Shape := ⟨2, ![2400000, 64]⟩
abbrev sItem : Shape := ⟨2, ![50000, 64]⟩
abbrev sAll : Shape := ⟨2, ![150000, 64]⟩
abbrev s0 : Shape := ⟨0, ![]⟩

/-- The projected items: entry (p, q) is the sum over x of a (p, x) · w (x, q), plus the bias at q. -/
def proj (a : FVec Ideal sFeat .f32) (w : FVec Ideal sW .f32) (b : FVec Ideal sB .f32) : FVec Ideal sItem .f32 :=
  fun i => (∑ x : Fin 512, a (ix2 (i 0) x) * w (ix2 x (i 1))) + b (ix1 (i 1))

theorem proj_apply (a : FVec Ideal sFeat .f32) (w : FVec Ideal sW .f32) (b : FVec Ideal sB .f32) (p : Fin 50000) (q : Fin 64) :
    proj a w b (ix2 p q) = (∑ x : Fin 512, a (ix2 p x) * w (ix2 x q)) + b (ix1 q) := rfl

/-- Every row divided by the larger of its Euclidean norm and the constant with the pattern 0x2B8CBCCC. -/
def nrm (x : FVec Ideal sAll .f32) : FVec Ideal sAll .f32 :=
  fun i => Ideal.div (x i) (max (Ideal.sqrt (∑ k : Fin 64, x (ix2 (i 0) k) * x (ix2 (i 0) k))) (Ideal.ofBits .f32 0x2B8CBCCC#32))

theorem nrm_apply (x : FVec Ideal sAll .f32) (p : Fin 150000) (q : Fin 64) :
    nrm x (ix2 p q) = Ideal.div (x (ix2 p q)) (max (Ideal.sqrt (∑ k : Fin 64, x (ix2 p k) * x (ix2 p k))) (Ideal.ofBits .f32 0x2B8CBCCC#32)) := rfl

/-- Row p of the gathered table times the weight of row p. -/
def scale (g : FVec Ideal sNnzD .f32) (v : FVec Ideal sNnz1 .f32) : FVec Ideal sNnzD .f32 :=
  fun i => g i * v (ix2 (i 0) (0 : Fin 1))

theorem scale_apply (g : FVec Ideal sNnzD .f32) (v : FVec Ideal sNnz1 .f32) (p : Fin 2400000) (q : Fin 64) :
    scale g v (ix2 p q) = g (ix2 p q) * v (ix2 p (0 : Fin 1)) := rfl

/-- The shape facts the host operations below carry. -/
structure Wit : Prop where
  cat : Shape.Concatenates [sUser, sItem] sAll 0
  bi : s0.BroadcastsInDim sNnz ![]
  bcol : sNnz.BroadcastsInDim sNnz1 ![0]
  bf : s0.BroadcastsInDim sAll ![]
  slU : sAll.Slices ![0, 0] sUser
  slI : sAll.Slices ![100000, 0] sItem

variable (G : GatherDims sAll sNnz1 sNnzD) (Sc : ScatterDims sAll sNnz1 sNnzD) (h : Wit)

/-- The column of start rows: `cols` with a negative entry moved up by the number of rows. -/
def startIdx (cols : IVec sNnz 32) : IVec sNnz1 32 :=
  broadcastInDim sNnz1 ![0] h.bcol
    (select (cmpi .slt cols (broadcastInDim sNnz ![] h.bi (constantI s0 32 0#32)))
      (addi cols (broadcastInDim sNnz ![] h.bi (constantI s0 32 150000#32))) cols)

/-- One propagation step. -/
def layer (e : FVec Ideal sAll .f32) (rows cols : IVec sNnz 32) (vals : FVec Ideal sNnz .f32) : FVec Ideal sAll .f32 :=
  Host.scatterAdd Sc (broadcastInDim sAll ![] h.bf (constant s0 .f32 0x00000000#32)) (broadcastInDim sNnz1 ![0] h.bcol rows)
    (scale (Host.gather G e (startIdx h cols)) (broadcastInDim sNnz1 ![0] h.bcol vals))

/-- The normalised table of users and projected items. -/
def emb0 (feat : FVec Ideal sFeat .f32) (upref : FVec Ideal sUser .f32) (w : FVec Ideal sW .f32) (b : FVec Ideal sB .f32) :
    FVec Ideal sAll .f32 :=
  nrm (concatenate sAll 0 [⟨sUser, upref⟩, ⟨sItem, proj feat w b⟩] h.cat)

/-- A quarter of the sum of the four tables. -/
def light (e0 e1 e2 e3 : FVec Ideal sAll .f32) : FVec Ideal sAll .f32 :=
  Host.divf (addf (addf (addf e0 e1) e2) e3) (broadcastInDim sAll ![] h.bf (constant s0 .f32 0x40800000#32))

def users (t : FVec Ideal sAll .f32) : FVec Ideal sUser .f32 := extractStridedSlice sUser ![0, 0] t h.slU
def items (t : FVec Ideal sAll .f32) : FVec Ideal sItem .f32 := extractStridedSlice sItem ![100000, 0] t h.slI

/-- The mean table as one function of the seven inputs. -/
def out (feat : FVec Ideal sFeat .f32) (upref : FVec Ideal sUser .f32) (w : FVec Ideal sW .f32) (b : FVec Ideal sB .f32)
    (rows cols : IVec sNnz 32) (vals : FVec Ideal sNnz .f32) : FVec Ideal sAll .f32 :=
  light h (emb0 h feat upref w b)
    (layer G Sc h (emb0 h feat upref w b) rows cols vals)
    (layer G Sc h (layer G Sc h (emb0 h feat upref w b) rows cols vals) rows cols vals)
    (layer G Sc h (layer G Sc h (layer G Sc h (emb0 h feat upref w b) rows cols vals) rows cols vals) rows cols vals)

end Cert.Mgcn

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.RegionProj.lean ====
/-
  Region 0, the matrix product with a bias row, as one function of whole arrays over the extended reals.

  At each of the 25 grid points the body reads a block of 2000 rows of the first operand, the whole second operand and
  the whole bias row; both operands' change of format is the identity, the product into the zero accumulator is, entry
  by entry, the sum over the 512 contracted coordinates of row entry times column entry, and the bias row is added to
  every row. So what point t writes back is rows 2000·t … 2000·t + 1999 of the projection of the three arrays, and
  since row r lies in block r / 2000 the 25 blocks fill the result array, which therefore ends holding the projection.
-/
import proofs.«125836_j24747601560207_1_alg».proof.Proof.Gen.KernelIdeal.Frame
import proofs.«125836_j24747601560207_1_alg».proof.Proof.Spec
import proofs.«125836_j24747601560207_1_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

namespace Proj

/-- The two zero offsets of a whole-buffer access. -/
theorem zero_offsets : (![0, 0] : Fin 2 → Nat) = fun _ => 0 := funext fun a => by fin_cases a <;> rfl

/-- The body's result at row p, column q of its block: the row of the first operand against the column of the
    second, summed over the 512 contracted coordinates, plus the bias row's entry at q. -/
theorem pay_apply (x0 : Vec Ideal S2000x512 .f32) (x1 : Vec Ideal S512x64 .f32) (x2 : Vec Ideal S1x64 .f32)
    (p : Fin 2000) (q : Fin 64) :
    k0_pay1 x0 x1 x2 (ix2 p q) = (∑ x : Fin 512, x0 (ix2 p x) * x1 (ix2 x q)) + x2 (ix2 (0 : Fin 1) q) := by
  unfold k0_pay1
  refine (addf_apply _ _ (ix2 p q)).trans ?_
  refine congrArg₂ (· + ·) ?_ ?_
  · exact Cert.PlainProduct.matmul_zero_apply (M := 2000) (K := 512) (N := 64) none
      (truncf .bf16 x0 bitsLt_bf16_f32) (truncf .bf16 x1 bitsLt_bf16_f32) p q
  · rw [shapeCast_self]
    exact broadcastTo_1b_ab_apply x2 broadcasts_S1x64_S2000x64 p q

/-- The printed index maps over the grid: the first operand's and the result's blocks move down one block of rows per
    point, the second operand and the bias row stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point t, read at row r: row t·2000 + r of the first operand's array. -/
theorem blk0_apply (c : Dev nD) (t : Fin cfg0.N) (r : Fin 2000) (x : Fin 512) (k : S50000x512.Idx)
    (hk0 : (k 0).val = t.val * 2000 + r.val) (hk1 : (k 1).val = x.val) :
    (iblk0 V c 0 t : Vec Ideal S2000x512 .f32) (ix2 r x) = (V c main_arg0 : FVec Ideal S50000x512 .f32) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * r.val = (k 0).val; omega
  | ⟨1, _⟩ => show win0_0.index t (1 : Fin 2) * 512 + 1 * x.val = (k 1).val; omega

/-- Window 1's block at every point is the whole second operand. -/
theorem blk1_eq (c : Dev nD) (t : Fin cfg0.N) :
    (iblk0 V c 1 t : Vec Ideal S512x64 .f32) = (V c main_arg2 : FVec Ideal S512x64 .f32) := by
  obtain ⟨-, -, e0, e1, -⟩ := idx_facts t
  funext y
  unfold iblk0
  rw [View.read_apply]
  show V c main_arg2 _ = V c main_arg2 _
  congr 1
  funext a
  apply Fin.ext
  match a with
  | ⟨0, _⟩ => show win0_1.index t (0 : Fin 2) * 512 + 1 * (y 0).val = (y 0).val; omega
  | ⟨1, _⟩ => show win0_1.index t (1 : Fin 2) * 64 + 1 * (y 1).val = (y 1).val; omega

/-- Window 2's block at every point is the whole bias row. -/
theorem blk2_eq (c : Dev nD) (t : Fin cfg0.N) :
    (iblk0 V c 2 t : Vec Ideal S1x64 .f32) = (V c main_v0 : FVec Ideal S1x64 .f32) := by
  obtain ⟨-, -, -, -, e0, e1, -⟩ := idx_facts t
  funext y
  unfold iblk0
  rw [View.read_apply]
  show V c main_v0 _ = V c main_v0 _
  congr 1
  funext a
  apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The body's result on a block of rows of `a` with the whole of `w` and `b`, read at an entry of the block, is the
    projection of `a`, `w`, `b` at the entry of the array that lies `n` blocks of rows further down. -/
theorem pay_eq_proj (a : FVec Ideal S50000x512 .f32) (w : FVec Ideal S512x64 .f32) (b : FVec Ideal S1x64 .f32)
    (x0 : Vec Ideal S2000x512 .f32) (x1 : Vec Ideal S512x64 .f32) (x2 : Vec Ideal S1x64 .f32) (n : ℕ)
    (h0 : ∀ (r : Fin 2000) (x : Fin 512) (k : S50000x512.Idx), (k 0).val = n * 2000 + r.val → (k 1).val = x.val →
      x0 (ix2 r x) = a k)
    (h1 : x1 = w) (h2 : x2 = b)
    (j : S2000x64.Idx) (i : S50000x64.Idx) (hi0 : (i 0).val = n * 2000 + (j 0).val) (hi1 : (i 1).val = (j 1).val) :
    k0_pay1 x0 x1 x2 j = Cert.Mgcn.proj a w (fun i => b (ix2 (0 : Fin 1) (i 0))) i := by
  obtain ⟨p, q, rfl⟩ : ∃ (p : Fin 2000) (q : Fin 64), j = ix2 p q := ⟨j 0, j 1, eq_ix2 j⟩
  obtain ⟨p', q', rfl⟩ : ∃ (p' : Fin 50000) (q' : Fin 64), i = ix2 p' q' := ⟨i 0, i 1, eq_ix2 i⟩
  obtain rfl : q' = q := Fin.ext hi1
  subst h1 h2
  rw [pay_apply, Cert.Mgcn.proj_apply]
  refine congrArg₂ (· + ·) (Finset.sum_congr rfl fun x _ => ?_) rfl
  exact congrArg (· * x1 (ix2 x q')) (h0 p x (ix2 p' x) hi0 rfl)

/-- The projected items as one array. -/
abbrev projArr (c : Dev nD) : FVec Ideal S50000x64 .f32 :=
  Cert.Mgcn.proj (V c main_arg0) (V c main_arg2) (fun i => (V c main_v0 : FVec Ideal S1x64 .f32) (ix2 (0 : Fin 1) (i 0)))

/-- What point t writes back is block t of the projected items. -/
theorem flushed_eq (c : Dev nD) (t : Fin cfg0.N) :
    (dat0 V c).flushed 3 t = ((cfg0.win 3).blk t).view.read (Elt Ideal) (projArr V c) := by
  show (cfg0.win 3).cut (grid0.coords t) ((dat0 V c).after 3 t) = _
  rw [after0_3]
  unfold out0_3
  rw [View.canon_unit_zero zero_offsets]
  simp only [View.ld_unit_zero (S := S2000x512) zero_offsets, View.ld_unit_zero (S := S512x64) zero_offsets,
    View.ld_unit_zero (S := S1x64) zero_offsets]
  obtain ⟨-, -, -, -, -, -, e0, e1⟩ := idx_facts t
  funext j
  refine pay_eq_proj (V c main_arg0) (V c main_arg2) (V c main_v0) (iblk0 V c 0 t) (iblk0 V c 1 t) (iblk0 V c 2 t) t.val
    (fun r x k hk0 hk1 => blk0_apply V c t r x k hk0 hk1) (blk1_eq V c t) (blk2_eq V c t) j
    (((cfg0.win 3).blk t).view.emb j) ?_ ?_
  · show win0_3.index t (0 : Fin 2) * 2000 + 1 * (j 0).val = t.val * 2000 + (j 0).val; omega
  · show win0_3.index t (1 : Fin 2) * 64 + 1 * (j 1).val = (j 1).val; omega

/-- An index of the result array is in point t's block iff each coordinate is in the block's range on its axis. -/
theorem mem_blk (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v1).slice (win0_3.rect t)).set ↔ _
  rw [View.set_slice_whole, Rect.mem_set_unit]
  exact Iff.rfl

/-- Row r of the result lies in the block of point r / 2000: the 25 blocks of 2000 rows fill the 50000 rows. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have ht : (i 0).val / 2000 < cfg0.N := by show (i 0).val / 2000 < 25; omega
  obtain ⟨-, -, -, -, -, -, e0, e1⟩ := idx_facts ⟨(i 0).val / 2000, ht⟩
  refine ⟨⟨(i 0).val / 2000, ht⟩, flush0_3 _, ?_⟩
  rw [mem_blk]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 64 ≤ (i 1).val
      ∧ (i 1).val < win0_3.index ⟨(i 0).val / 2000, ht⟩ (1 : Fin 2) * 64 + 64
    rw [e1]; omega

end Proj

/-- Region 0's result array after its 25 points: the projected items. Each point writes back one block of 2000 rows
    that is the projection's block, and the blocks fill the array. -/
theorem arr0 (c : Dev nD) : ((dat0 V c).arrAt 3 cfg0.N : FVec Ideal S50000x64 .f32)
    = Cert.Mgcn.proj (V c main_arg0) (V c main_arg2) (fun i => (V c main_v0 : FVec Ideal S1x64 .f32) (ix2 (0 : Fin 1) (i 0))) :=
  (dat0 V c).arrAt_eq_of_cover 3 (Proj.projArr V c) (fun t _ => Proj.flushed_eq V c t) Proj.cover

end Cert.KernelIdeal.RegionValue

end
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.RegionNorm.lean ====
import proofs.«125836_j24747601560207_1_alg».proof.Proof.Gen.KernelIdeal.Frame
import proofs.«125836_j24747601560207_1_alg».proof.Proof.Spec
import proofs.«125836_j24747601560207_1_alg».proof.Proof.LibTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

namespace Nrm1

/-- The table whose rows the region normalises. -/
abbrev xarr (c : Dev nD) : FVec Ideal S150000x64 .f32 := V c main_v2

/-- The zero offsets of a whole-buffer access. -/
theorem hz : (![0, 0] : Fin 2 → Nat) = fun _ => 0 := funext fun a => by fin_cases a <;> rfl

/-- Both windows sit at row block t and column block 0 at grid point t. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The grid has 25 points. -/
theorem npoints : cfg1.N = 25 := by decide

/-- The payload of a [6000, 64] tile at (p, q): the entry over the larger of the row's norm and the constant. -/
theorem pay_apply (X : FVec Ideal S6000x64 .f32) (p : Fin 6000) (q : Fin 64) :
    k1_pay1 (F := Ideal) X (ix2 p q)
      = Ideal.div (X (ix2 p q)) (max (Ideal.sqrt (∑ k : Fin 64, X (ix2 p k) * X (ix2 p k))) (Ideal.ofBits .f32 0x2B8CBCCC#32)) := by
  unfold k1_pay1
  rw [shapeCast_self X shapeCasts_S6000x64_S6000x64]
  refine congrArg (Ideal.div (X (ix2 p q))) ?_
  refine (Cert.Tile.broadcastTo_a1_ab_apply _ broadcasts_S6000x1_S6000x64 p q).trans ?_
  refine congrArg₂ max (congrArg Ideal.sqrt ?_) (Ideal.ofBits_def _)
  exact Cert.Tile.rowSumCol_apply (mulf X X) reduces_S6000x64_S6000 (.inl rfl) rfl shapeCasts_S6000_S6000x1 p 0

/-- Row p of the input block at grid point t is row t * 6000 + p of the table, column by column. -/
theorem in_blk_apply (c : Dev nD) (t : Fin cfg1.N) (p : Fin 6000) (k : Fin 64) (hr : t.val * 6000 + p.val < 150000) :
    (iblk1 V c 0 t : FVec Ideal S6000x64 .f32) (ix2 p k) = xarr V c (ix2 ⟨t.val * 6000 + p.val, hr⟩ k) := by
  obtain ⟨e0, e1, -, -⟩ := idx_facts t
  unfold iblk1
  rw [View.read_apply]
  show V c main_v2 _ = V c main_v2 _
  congr 1
  funext a
  apply Fin.ext
  match a with
  | ⟨0, _⟩ => show win1_0.index t (0 : Fin 2) * 6000 + 1 * p.val = t.val * 6000 + p.val; rw [e0]; omega
  | ⟨1, _⟩ => show win1_0.index t (1 : Fin 2) * 64 + 1 * k.val = k.val; rw [e1]; omega

/-- What grid point t writes back is block t of the normalised table. -/
theorem flushed_eq (c : Dev nD) (t : Fin cfg1.N) :
    (dat1 V c).flushed 1 t = ((cfg1.win 1).blk t).view.read (Elt Ideal) (Cert.Mgcn.nrm (xarr V c)) := by
  show (cfg1.win 1).cut (grid1.coords t) ((dat1 V c).after 1 t) = _
  rw [after1_1]
  unfold out1_1
  rw [View.canon_unit_zero hz]
  simp only [View.ld_unit_zero (S := S6000x64) hz]
  obtain ⟨-, -, e2, e3⟩ := idx_facts t
  have hN : t.val < 25 := npoints ▸ t.isLt
  funext j
  obtain ⟨p, q, rfl⟩ : ∃ (p : Fin 6000) (q : Fin 64), j = ix2 p q := ⟨j 0, j 1, eq_ix2 j⟩
  have hr : t.val * 6000 + p.val < 150000 := by have := p.isLt; omega
  have he : ((cfg1.win 1).blk t).view.emb (ix2 p q) = ix2 (⟨t.val * 6000 + p.val, hr⟩ : Fin 150000) q := by
    funext a
    apply Fin.ext
    match a with
    | ⟨0, _⟩ => show win1_1.index t (0 : Fin 2) * 6000 + 1 * p.val = t.val * 6000 + p.val; rw [e2]; omega
    | ⟨1, _⟩ => show win1_1.index t (1 : Fin 2) * 64 + 1 * q.val = q.val; rw [e3]; omega
  rw [View.read_apply, he]
  refine (pay_apply (iblk1 V c 0 t) p q).trans ?_
  refine Eq.trans ?_ (Cert.Mgcn.nrm_apply (xarr V c) ⟨t.val * 6000 + p.val, hr⟩ q).symm
  rw [in_blk_apply V c t p q hr]
  refine congrArg (Ideal.div _) (congrArg₂ max (congrArg Ideal.sqrt (Finset.sum_congr rfl fun k _ => ?_)) rfl)
  rw [in_blk_apply V c t p k hr]

/-- An index of the table is in point t's block iff each coordinate is in the block's range on its axis. -/
theorem mem_blk (t : Fin cfg1.N) (i : S150000x64.Idx) :
    i ∈ ((cfg1.win 1).blk t).view.set ↔ ∀ a : Fin 2, win1_1.index t a * S6000x64.size a ≤ (i a).val ∧ (i a).val < win1_1.index t a * S6000x64.size a + S6000x64.size a := by
  show i ∈ ((View.whole main_v3).slice (win1_1.rect t)).set ↔ _
  rw [View.set_slice_whole, Rect.mem_set_unit]
  exact Iff.rfl

/-- Row r of the table is in the block of grid point r / 6000: the 25 row blocks tile the 150000 rows. -/
theorem cover (i : S150000x64.Idx) :
    ∃ t : Fin cfg1.N, (cfg1.win 1).flush t = true ∧ i ∈ ((cfg1.win 1).blk t).view.set := by
  have hi0 : (i 0).val < 150000 := (i 0).isLt
  have hi1 : (i 1).val < 64 := (i 1).isLt
  have ht : (i 0).val / 6000 < cfg1.N := by rw [npoints]; omega
  obtain ⟨-, -, e2, e3⟩ := idx_facts ⟨(i 0).val / 6000, ht⟩
  refine ⟨⟨(i 0).val / 6000, ht⟩, flush1_1 _, ?_⟩
  rw [mem_blk]
  intro a
  match a with
  | ⟨0, _⟩ =>
    show win1_1.index ⟨(i 0).val / 6000, ht⟩ (0 : Fin 2) * 6000 ≤ (i 0).val ∧ (i 0).val < win1_1.index ⟨(i 0).val / 6000, ht⟩ (0 : Fin 2) * 6000 + 6000
    rw [e2]; show (i 0).val / 6000 * 6000 ≤ (i 0).val ∧ (i 0).val < (i 0).val / 6000 * 6000 + 6000; omega
  | ⟨1, _⟩ =>
    show win1_1.index ⟨(i 0).val / 6000, ht⟩ (1 : Fin 2) * 64 ≤ (i 1).val ∧ (i 1).val < win1_1.index ⟨(i 0).val / 6000, ht⟩ (1 : Fin 2) * 64 + 64
    rw [e3]; omega

/-- After the region the output table is the normalised input table. -/
theorem final (c : Dev nD) : (dat1 V c).arrAt 1 cfg1.N = Cert.Mgcn.nrm (xarr V c) :=
  (dat1 V c).arrAt_eq_of_cover 1 (Cert.Mgcn.nrm (xarr V c)) (fun t _ => flushed_eq V c t) cover

end Nrm1

theorem arr1 (c : Dev nD) : ((dat1 V c).arrAt 1 cfg1.N : FVec Ideal S150000x64 .f32) = Cert.Mgcn.nrm (V c main_v2) :=
  Nrm1.final V c

end Cert.KernelIdeal.RegionValue

end
-- ==== Proof.RegionScale2.lean ====
/-
  The scaling stage as one function of its two arrays.

  The stage runs over 125 grid points. At point t it multiplies rows t·19200 … t·19200 + 19199 of the gathered
  table, entry by entry, by the weight of the same row (the weights' column spread along the 64 columns), and
  writes the products back to the same rows of the result. Each block's entries are therefore the entries of
  `Cert.Mgcn.scale` of the two whole arrays at those rows, and since row r lies in block r / 19200 the 125
  blocks fill the result: the result array is `Cert.Mgcn.scale` of the gathered table and the weights.
-/
import proofs.«125836_j24747601560207_1_alg».proof.Proof.Gen.KernelIdeal.Frame
import proofs.«125836_j24747601560207_1_alg».proof.Proof.Spec
import proofs.«125836_j24747601560207_1_alg».proof.Proof.LibTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets of a whole-block access, as a constant function. -/
theorem zeroOff2 : (![0, 0] : Fin 2 → Nat) = fun _ => 0 := funext fun a => by fin_cases a <;> rfl

/-- At grid point t every window sits at row block t and column block 0. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The block product at (p, q): the gathered entry times the weight of row p. -/
theorem payAt2 (x0 : Vec Ideal S19200x64 .f32) (x1 : Vec Ideal S19200x1 .f32) (p : Fin 19200) (q : Fin 64) :
    k2_pay1 x0 x1 (ix2 p q) = x0 (ix2 p q) * x1 (ix2 p (0 : Fin 1)) := by
  unfold k2_pay1
  rw [shapeCast_self, shapeCast_self]
  refine (mulf_apply _ _ _).trans ?_
  rw [Cert.Tile.broadcastTo_a1_ab_apply]

/-- An entry of the block product is an entry of the scaled table, once the block's two operands are
    known to be the table's entry and its row's weight. -/
theorem payScale2 (g : FVec Ideal S2400000x64 .f32) (v : FVec Ideal S2400000x1 .f32)
    (x0 : Vec Ideal S19200x64 .f32) (x1 : Vec Ideal S19200x1 .f32) (j : S19200x64.Idx) (i : S2400000x64.Idx)
    (h0 : x0 j = g i) (h1 : x1 (ix2 (j 0) (0 : Fin 1)) = v (ix2 (i 0) (0 : Fin 1))) :
    k2_pay1 x0 x1 j = Cert.Mgcn.scale g v i := by
  obtain ⟨p, q, rfl⟩ : ∃ (p : Fin 19200) (q : Fin 64), j = ix2 p q := ⟨j 0, j 1, eq_ix2 j⟩
  rw [payAt2, h0]
  exact congrArg (g i * ·) h1

/-- Window 0's block at point t is rows t·19200 onwards of the gathered table. -/
theorem gathBlock2 (c : Dev nD) (t : Fin cfg2.N) (y : S19200x64.Idx) (k : S2400000x64.Idx)
    (hk0 : (k 0).val = t.val * 19200 + (y 0).val) (hk1 : (k 1).val = (y 1).val) :
    (iblk2 V c 0 t : Vec Ideal S19200x64 .f32) y = (V c main_v10 : FVec Ideal S2400000x64 .f32) k := by
  obtain ⟨e0, e1, -, -, -, -⟩ := blockIdx2 t
  unfold iblk2
  rw [View.read_apply]
  show V c main_v10 _ = V c main_v10 _
  congr 1
  funext a
  apply Fin.ext
  match a with
  | ⟨0, _⟩ => show win2_0.index t (0 : Fin 2) * 19200 + 1 * (y 0).val = (k 0).val; rw [e0, hk0]; omega
  | ⟨1, _⟩ => show win2_0.index t (1 : Fin 2) * 64 + 1 * (y 1).val = (k 1).val; rw [e1, hk1]; omega

/-- Window 1's block at point t is rows t·19200 onwards of the column of weights. -/
theorem wgtBlock2 (c : Dev nD) (t : Fin cfg2.N) (y : S19200x1.Idx) (k : S2400000x1.Idx)
    (hk0 : (k 0).val = t.val * 19200 + (y 0).val) :
    (iblk2 V c 1 t : Vec Ideal S19200x1 .f32) y = (V c main_v11 : FVec Ideal S2400000x1 .f32) k := by
  obtain ⟨-, -, e2, e3, -, -⟩ := blockIdx2 t
  unfold iblk2
  rw [View.read_apply]
  show V c main_v11 _ = V c main_v11 _
  congr 1
  funext a
  apply Fin.ext
  match a with
  | ⟨0, _⟩ => show win2_1.index t (0 : Fin 2) * 19200 + 1 * (y 0).val = (k 0).val; rw [e2, hk0]; omega
  | ⟨1, _⟩ => show win2_1.index t (1 : Fin 2) * 1 + 1 * (y 1).val = (k 1).val; rw [e3]; have hy : (y 1).val < 1 := (y 1).isLt; have hk : (k 1).val < 1 := (k 1).isLt; omega

/-- What point t writes back is block t of the scaled table: the product of the two loaded blocks, entry
    by entry, with each block read at the rows t·19200 onwards of its array. -/
theorem flushedEq2 (c : Dev nD) (t : Fin cfg2.N) :
    (dat2 V c).flushed 2 t = ((cfg2.win 2).blk t).view.read (Elt Ideal) (Cert.Mgcn.scale (V c main_v10) (V c main_v11)) := by
  show (cfg2.win 2).cut (grid2.coords t) ((dat2 V c).after 2 t) = _
  rw [after2_2]
  unfold out2_2
  rw [View.canon_unit_zero zeroOff2]
  simp only [View.ld_unit_zero (S := S19200x64) zeroOff2, View.ld_unit_zero (S := S19200x1) zeroOff2]
  obtain ⟨-, -, -, -, e4, e5⟩ := blockIdx2 t
  funext j
  show k2_pay1 (iblk2 V c 0 t) (iblk2 V c 1 t) j
      = Cert.Mgcn.scale (V c main_v10) (V c main_v11) (((cfg2.win 2).blk t).view.emb j)
  have o0 : ((((cfg2.win 2).blk t).view.emb j) 0).val = t.val * 19200 + (j 0).val := by
    show win2_2.index t (0 : Fin 2) * 19200 + 1 * (j 0).val = _; rw [e4]; omega
  have o1 : ((((cfg2.win 2).blk t).view.emb j) 1).val = (j 1).val := by
    show win2_2.index t (1 : Fin 2) * 64 + 1 * (j 1).val = _; rw [e5]; omega
  exact payScale2 (V c main_v10) (V c main_v11) (iblk2 V c 0 t) (iblk2 V c 1 t) j _
    (gathBlock2 V c t j _ o0 o1) (wgtBlock2 V c t _ _ o0)

/-- An index lies in point t's block exactly when each coordinate lies in the block's range on its axis. -/
theorem memBlock2 (t : Fin cfg2.N) (i : S2400000x64.Idx) :
    i ∈ ((cfg2.win 2).blk t).view.set ↔ ∀ a : Fin 2, win2_2.index t a * S19200x64.size a ≤ (i a).val
      ∧ (i a).val < win2_2.index t a * S19200x64.size a + S19200x64.size a := by
  show i ∈ ((View.whole main_v12).slice (win2_2.rect t)).set ↔ _
  rw [View.set_slice_whole, Rect.mem_set_unit]
  exact Iff.rfl

/-- Row r lies in block r / 19200: the 125 row blocks fill the table. -/
theorem covered2 (i : S2400000x64.Idx) :
    ∃ t : Fin cfg2.N, (cfg2.win 2).flush t = true ∧ i ∈ ((cfg2.win 2).blk t).view.set := by
  have hi0 : (i 0).val < 2400000 := (i 0).isLt
  have hi1 : (i 1).val < 64 := (i 1).isLt
  have ht : (i 0).val / 19200 < cfg2.N := by rw [show cfg2.N = 125 from N_2]; omega
  obtain ⟨-, -, -, -, e4, e5⟩ := blockIdx2 ⟨(i 0).val / 19200, ht⟩
  refine ⟨⟨(i 0).val / 19200, ht⟩, flush2_2 _, ?_⟩
  rw [memBlock2]
  intro a
  match a with
  | ⟨0, _⟩ =>
    show win2_2.index ⟨(i 0).val / 19200, ht⟩ (0 : Fin 2) * 19200 ≤ (i 0).val
      ∧ (i 0).val < win2_2.index ⟨(i 0).val / 19200, ht⟩ (0 : Fin 2) * 19200 + 19200
    rw [e4]; show (i 0).val / 19200 * 19200 ≤ (i 0).val ∧ (i 0).val < (i 0).val / 19200 * 19200 + 19200; omega
  | ⟨1, _⟩ =>
    show win2_2.index ⟨(i 0).val / 19200, ht⟩ (1 : Fin 2) * 64 ≤ (i 1).val
      ∧ (i 1).val < win2_2.index ⟨(i 0).val / 19200, ht⟩ (1 : Fin 2) * 64 + 64
    rw [e5]; omega

/-- After the stage, the result array is the gathered table with every row scaled by its weight. -/
theorem arr2 (c : Dev nD) : ((dat2 V c).arrAt 2 cfg2.N : FVec Ideal S2400000x64 .f32) = Cert.Mgcn.scale (V c main_v10) (V c main_v11) :=
  (dat2 V c).arrAt_eq_of_cover 2 (Cert.Mgcn.scale (V c main_v10) (V c main_v11)) (fun t _ => flushedEq2 V c t) covered2

end Cert.KernelIdeal.RegionValue

end
-- ==== Proof.RegionScale4.lean ====
/- The hand-written module proof/Proof/RegionScale2.lean laid out for region 4: region 2's names replaced by region 4's, nothing else changed. -/
/-
  The scaling stage as one function of its two arrays.

  The stage runs over 125 grid points. At point t it multiplies rows t·19200 … t·19200 + 19199 of the gathered
  table, entry by entry, by the weight of the same row (the weights' column spread along the 64 columns), and
  writes the products back to the same rows of the result. Each block's entries are therefore the entries of
  `Cert.Mgcn.scale` of the two whole arrays at those rows, and since row r lies in block r / 19200 the 125
  blocks fill the result: the result array is `Cert.Mgcn.scale` of the gathered table and the weights.
-/
import proofs.«125836_j24747601560207_1_alg».proof.Proof.Gen.KernelIdeal.Frame
import proofs.«125836_j24747601560207_1_alg».proof.Proof.Spec
import proofs.«125836_j24747601560207_1_alg».proof.Proof.LibTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets of a whole-block access, as a constant function. -/
theorem zeroOff4 : (![0, 0] : Fin 2 → Nat) = fun _ => 0 := funext fun a => by fin_cases a <;> rfl

/-- At grid point t every window sits at row block t and column block 0. -/
theorem blockIdx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The block product at (p, q): the gathered entry times the weight of row p. -/
theorem payAt4 (x0 : Vec Ideal S19200x64 .f32) (x1 : Vec Ideal S19200x1 .f32) (p : Fin 19200) (q : Fin 64) :
    k4_pay1 x0 x1 (ix2 p q) = x0 (ix2 p q) * x1 (ix2 p (0 : Fin 1)) := by
  unfold k4_pay1
  rw [shapeCast_self, shapeCast_self]
  refine (mulf_apply _ _ _).trans ?_
  rw [Cert.Tile.broadcastTo_a1_ab_apply]

/-- An entry of the block product is an entry of the scaled table, once the block's two operands are
    known to be the table's entry and its row's weight. -/
theorem payScale4 (g : FVec Ideal S2400000x64 .f32) (v : FVec Ideal S2400000x1 .f32)
    (x0 : Vec Ideal S19200x64 .f32) (x1 : Vec Ideal S19200x1 .f32) (j : S19200x64.Idx) (i : S2400000x64.Idx)
    (h0 : x0 j = g i) (h1 : x1 (ix2 (j 0) (0 : Fin 1)) = v (ix2 (i 0) (0 : Fin 1))) :
    k4_pay1 x0 x1 j = Cert.Mgcn.scale g v i := by
  obtain ⟨p, q, rfl⟩ : ∃ (p : Fin 19200) (q : Fin 64), j = ix2 p q := ⟨j 0, j 1, eq_ix2 j⟩
  rw [payAt4, h0]
  exact congrArg (g i * ·) h1

/-- Window 0's block at point t is rows t·19200 onwards of the gathered table. -/
theorem gathBlock4 (c : Dev nD) (t : Fin cfg4.N) (y : S19200x64.Idx) (k : S2400000x64.Idx)
    (hk0 : (k 0).val = t.val * 19200 + (y 0).val) (hk1 : (k 1).val = (y 1).val) :
    (iblk4 V c 0 t : Vec Ideal S19200x64 .f32) y = (V c main_v23 : FVec Ideal S2400000x64 .f32) k := by
  obtain ⟨e0, e1, -, -, -, -⟩ := blockIdx4 t
  unfold iblk4
  rw [View.read_apply]
  show V c main_v23 _ = V c main_v23 _
  congr 1
  funext a
  apply Fin.ext
  match a with
  | ⟨0, _⟩ => show win4_0.index t (0 : Fin 2) * 19200 + 1 * (y 0).val = (k 0).val; rw [e0, hk0]; omega
  | ⟨1, _⟩ => show win4_0.index t (1 : Fin 2) * 64 + 1 * (y 1).val = (k 1).val; rw [e1, hk1]; omega

/-- Window 1's block at point t is rows t·19200 onwards of the column of weights. -/
theorem wgtBlock4 (c : Dev nD) (t : Fin cfg4.N) (y : S19200x1.Idx) (k : S2400000x1.Idx)
    (hk0 : (k 0).val = t.val * 19200 + (y 0).val) :
    (iblk4 V c 1 t : Vec Ideal S19200x1 .f32) y = (V c main_v24 : FVec Ideal S2400000x1 .f32) k := by
  obtain ⟨-, -, e2, e3, -, -⟩ := blockIdx4 t
  unfold iblk4
  rw [View.read_apply]
  show V c main_v24 _ = V c main_v24 _
  congr 1
  funext a
  apply Fin.ext
  match a with
  | ⟨0, _⟩ => show win4_1.index t (0 : Fin 2) * 19200 + 1 * (y 0).val = (k 0).val; rw [e2, hk0]; omega
  | ⟨1, _⟩ => show win4_1.index t (1 : Fin 2) * 1 + 1 * (y 1).val = (k 1).val; rw [e3]; have hy : (y 1).val < 1 := (y 1).isLt; have hk : (k 1).val < 1 := (k 1).isLt; omega

/-- What point t writes back is block t of the scaled table: the product of the two loaded blocks, entry
    by entry, with each block read at the rows t·19200 onwards of its array. -/
theorem flushedEq4 (c : Dev nD) (t : Fin cfg4.N) :
    (dat4 V c).flushed 2 t = ((cfg4.win 2).blk t).view.read (Elt Ideal) (Cert.Mgcn.scale (V c main_v23) (V c main_v24)) := by
  show (cfg4.win 2).cut (grid4.coords t) ((dat4 V c).after 2 t) = _
  rw [after4_2]
  unfold out4_2
  rw [View.canon_unit_zero zeroOff4]
  simp only [View.ld_unit_zero (S := S19200x64) zeroOff4, View.ld_unit_zero (S := S19200x1) zeroOff4]
  obtain ⟨-, -, -, -, e4, e5⟩ := blockIdx4 t
  funext j
  show k4_pay1 (iblk4 V c 0 t) (iblk4 V c 1 t) j
      = Cert.Mgcn.scale (V c main_v23) (V c main_v24) (((cfg4.win 2).blk t).view.emb j)
  have o0 : ((((cfg4.win 2).blk t).view.emb j) 0).val = t.val * 19200 + (j 0).val := by
    show win4_2.index t (0 : Fin 2) * 19200 + 1 * (j 0).val = _; rw [e4]; omega
  have o1 : ((((cfg4.win 2).blk t).view.emb j) 1).val = (j 1).val := by
    show win4_2.index t (1 : Fin 2) * 64 + 1 * (j 1).val = _; rw [e5]; omega
  exact payScale4 (V c main_v23) (V c main_v24) (iblk4 V c 0 t) (iblk4 V c 1 t) j _
    (gathBlock4 V c t j _ o0 o1) (wgtBlock4 V c t _ _ o0)

/-- An index lies in point t's block exactly when each coordinate lies in the block's range on its axis. -/
theorem memBlock4 (t : Fin cfg4.N) (i : S2400000x64.Idx) :
    i ∈ ((cfg4.win 2).blk t).view.set ↔ ∀ a : Fin 2, win4_2.index t a * S19200x64.size a ≤ (i a).val
      ∧ (i a).val < win4_2.index t a * S19200x64.size a + S19200x64.size a := by
  show i ∈ ((View.whole main_v25).slice (win4_2.rect t)).set ↔ _
  rw [View.set_slice_whole, Rect.mem_set_unit]
  exact Iff.rfl

/-- Row r lies in block r / 19200: the 125 row blocks fill the table. -/
theorem covered4 (i : S2400000x64.Idx) :
    ∃ t : Fin cfg4.N, (cfg4.win 2).flush t = true ∧ i ∈ ((cfg4.win 2).blk t).view.set := by
  have hi0 : (i 0).val < 2400000 := (i 0).isLt
  have hi1 : (i 1).val < 64 := (i 1).isLt
  have ht : (i 0).val / 19200 < cfg4.N := by rw [show cfg4.N = 125 from N_4]; omega
  obtain ⟨-, -, -, -, e4, e5⟩ := blockIdx4 ⟨(i 0).val / 19200, ht⟩
  refine ⟨⟨(i 0).val / 19200, ht⟩, flush4_2 _, ?_⟩
  rw [memBlock4]
  intro a
  match a with
  | ⟨0, _⟩ =>
    show win4_2.index ⟨(i 0).val / 19200, ht⟩ (0 : Fin 2) * 19200 ≤ (i 0).val
      ∧ (i 0).val < win4_2.index ⟨(i 0).val / 19200, ht⟩ (0 : Fin 2) * 19200 + 19200
    rw [e4]; show (i 0).val / 19200 * 19200 ≤ (i 0).val ∧ (i 0).val < (i 0).val / 19200 * 19200 + 19200; omega
  | ⟨1, _⟩ =>
    show win4_2.index ⟨(i 0).val / 19200, ht⟩ (1 : Fin 2) * 64 ≤ (i 1).val
      ∧ (i 1).val < win4_2.index ⟨(i 0).val / 19200, ht⟩ (1 : Fin 2) * 64 + 64
    rw [e5]; omega

/-- After the stage, the result array is the gathered table with every row scaled by its weight. -/
theorem arr4 (c : Dev nD) : ((dat4 V c).arrAt 2 cfg4.N : FVec Ideal S2400000x64 .f32) = Cert.Mgcn.scale (V c main_v23) (V c main_v24) :=
  (dat4 V c).arrAt_eq_of_cover 2 (Cert.Mgcn.scale (V c main_v23) (V c main_v24)) (fun t _ => flushedEq4 V c t) covered4

end Cert.KernelIdeal.RegionValue

end
-- ==== Proof.RegionScale6.lean ====
/- The hand-written module proof/Proof/RegionScale2.lean laid out for region 6: region 2's names replaced by region 6's, nothing else changed. -/
/-
  The scaling stage as one function of its two arrays.

  The stage runs over 125 grid points. At point t it multiplies rows t·19200 … t·19200 + 19199 of the gathered
  table, entry by entry, by the weight of the same row (the weights' column spread along the 64 columns), and
  writes the products back to the same rows of the result. Each block's entries are therefore the entries of
  `Cert.Mgcn.scale` of the two whole arrays at those rows, and since row r lies in block r / 19200 the 125
  blocks fill the result: the result array is `Cert.Mgcn.scale` of the gathered table and the weights.
-/
import proofs.«125836_j24747601560207_1_alg».proof.Proof.Gen.KernelIdeal.Frame
import proofs.«125836_j24747601560207_1_alg».proof.Proof.Spec
import proofs.«125836_j24747601560207_1_alg».proof.Proof.LibTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets of a whole-block access, as a constant function. -/
theorem zeroOff6 : (![0, 0] : Fin 2 → Nat) = fun _ => 0 := funext fun a => by fin_cases a <;> rfl

/-- At grid point t every window sits at row block t and column block 0. -/
theorem blockIdx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- The block product at (p, q): the gathered entry times the weight of row p. -/
theorem payAt6 (x0 : Vec Ideal S19200x64 .f32) (x1 : Vec Ideal S19200x1 .f32) (p : Fin 19200) (q : Fin 64) :
    k6_pay1 x0 x1 (ix2 p q) = x0 (ix2 p q) * x1 (ix2 p (0 : Fin 1)) := by
  unfold k6_pay1
  rw [shapeCast_self, shapeCast_self]
  refine (mulf_apply _ _ _).trans ?_
  rw [Cert.Tile.broadcastTo_a1_ab_apply]

/-- An entry of the block product is an entry of the scaled table, once the block's two operands are
    known to be the table's entry and its row's weight. -/
theorem payScale6 (g : FVec Ideal S2400000x64 .f32) (v : FVec Ideal S2400000x1 .f32)
    (x0 : Vec Ideal S19200x64 .f32) (x1 : Vec Ideal S19200x1 .f32) (j : S19200x64.Idx) (i : S2400000x64.Idx)
    (h0 : x0 j = g i) (h1 : x1 (ix2 (j 0) (0 : Fin 1)) = v (ix2 (i 0) (0 : Fin 1))) :
    k6_pay1 x0 x1 j = Cert.Mgcn.scale g v i := by
  obtain ⟨p, q, rfl⟩ : ∃ (p : Fin 19200) (q : Fin 64), j = ix2 p q := ⟨j 0, j 1, eq_ix2 j⟩
  rw [payAt6, h0]
  exact congrArg (g i * ·) h1

/-- Window 0's block at point t is rows t·19200 onwards of the gathered table. -/
theorem gathBlock6 (c : Dev nD) (t : Fin cfg6.N) (y : S19200x64.Idx) (k : S2400000x64.Idx)
    (hk0 : (k 0).val = t.val * 19200 + (y 0).val) (hk1 : (k 1).val = (y 1).val) :
    (iblk6 V c 0 t : Vec Ideal S19200x64 .f32) y = (V c main_v36 : FVec Ideal S2400000x64 .f32) k := by
  obtain ⟨e0, e1, -, -, -, -⟩ := blockIdx6 t
  unfold iblk6
  rw [View.read_apply]
  show V c main_v36 _ = V c main_v36 _
  congr 1
  funext a
  apply Fin.ext
  match a with
  | ⟨0, _⟩ => show win6_0.index t (0 : Fin 2) * 19200 + 1 * (y 0).val = (k 0).val; rw [e0, hk0]; omega
  | ⟨1, _⟩ => show win6_0.index t (1 : Fin 2) * 64 + 1 * (y 1).val = (k 1).val; rw [e1, hk1]; omega

/-- Window 1's block at point t is rows t·19200 onwards of the column of weights. -/
theorem wgtBlock6 (c : Dev nD) (t : Fin cfg6.N) (y : S19200x1.Idx) (k : S2400000x1.Idx)
    (hk0 : (k 0).val = t.val * 19200 + (y 0).val) :
    (iblk6 V c 1 t : Vec Ideal S19200x1 .f32) y = (V c main_v37 : FVec Ideal S2400000x1 .f32) k := by
  obtain ⟨-, -, e2, e3, -, -⟩ := blockIdx6 t
  unfold iblk6
  rw [View.read_apply]
  show V c main_v37 _ = V c main_v37 _
  congr 1
  funext a
  apply Fin.ext
  match a with
  | ⟨0, _⟩ => show win6_1.index t (0 : Fin 2) * 19200 + 1 * (y 0).val = (k 0).val; rw [e2, hk0]; omega
  | ⟨1, _⟩ => show win6_1.index t (1 : Fin 2) * 1 + 1 * (y 1).val = (k 1).val; rw [e3]; have hy : (y 1).val < 1 := (y 1).isLt; have hk : (k 1).val < 1 := (k 1).isLt; omega

/-- What point t writes back is block t of the scaled table: the product of the two loaded blocks, entry
    by entry, with each block read at the rows t·19200 onwards of its array. -/
theorem flushedEq6 (c : Dev nD) (t : Fin cfg6.N) :
    (dat6 V c).flushed 2 t = ((cfg6.win 2).blk t).view.read (Elt Ideal) (Cert.Mgcn.scale (V c main_v36) (V c main_v37)) := by
  show (cfg6.win 2).cut (grid6.coords t) ((dat6 V c).after 2 t) = _
  rw [after6_2]
  unfold out6_2
  rw [View.canon_unit_zero zeroOff6]
  simp only [View.ld_unit_zero (S := S19200x64) zeroOff6, View.ld_unit_zero (S := S19200x1) zeroOff6]
  obtain ⟨-, -, -, -, e4, e5⟩ := blockIdx6 t
  funext j
  show k6_pay1 (iblk6 V c 0 t) (iblk6 V c 1 t) j
      = Cert.Mgcn.scale (V c main_v36) (V c main_v37) (((cfg6.win 2).blk t).view.emb j)
  have o0 : ((((cfg6.win 2).blk t).view.emb j) 0).val = t.val * 19200 + (j 0).val := by
    show win6_2.index t (0 : Fin 2) * 19200 + 1 * (j 0).val = _; rw [e4]; omega
  have o1 : ((((cfg6.win 2).blk t).view.emb j) 1).val = (j 1).val := by
    show win6_2.index t (1 : Fin 2) * 64 + 1 * (j 1).val = _; rw [e5]; omega
  exact payScale6 (V c main_v36) (V c main_v37) (iblk6 V c 0 t) (iblk6 V c 1 t) j _
    (gathBlock6 V c t j _ o0 o1) (wgtBlock6 V c t _ _ o0)

/-- An index lies in point t's block exactly when each coordinate lies in the block's range on its axis. -/
theorem memBlock6 (t : Fin cfg6.N) (i : S2400000x64.Idx) :
    i ∈ ((cfg6.win 2).blk t).view.set ↔ ∀ a : Fin 2, win6_2.index t a * S19200x64.size a ≤ (i a).val
      ∧ (i a).val < win6_2.index t a * S19200x64.size a + S19200x64.size a := by
  show i ∈ ((View.whole main_v38).slice (win6_2.rect t)).set ↔ _
  rw [View.set_slice_whole, Rect.mem_set_unit]
  exact Iff.rfl

/-- Row r lies in block r / 19200: the 125 row blocks fill the table. -/
theorem covered6 (i : S2400000x64.Idx) :
    ∃ t : Fin cfg6.N, (cfg6.win 2).flush t = true ∧ i ∈ ((cfg6.win 2).blk t).view.set := by
  have hi0 : (i 0).val < 2400000 := (i 0).isLt
  have hi1 : (i 1).val < 64 := (i 1).isLt
  have ht : (i 0).val / 19200 < cfg6.N := by rw [show cfg6.N = 125 from N_6]; omega
  obtain ⟨-, -, -, -, e4, e5⟩ := blockIdx6 ⟨(i 0).val / 19200, ht⟩
  refine ⟨⟨(i 0).val / 19200, ht⟩, flush6_2 _, ?_⟩
  rw [memBlock6]
  intro a
  match a with
  | ⟨0, _⟩ =>
    show win6_2.index ⟨(i 0).val / 19200, ht⟩ (0 : Fin 2) * 19200 ≤ (i 0).val
      ∧ (i 0).val < win6_2.index ⟨(i 0).val / 19200, ht⟩ (0 : Fin 2) * 19200 + 19200
    rw [e4]; show (i 0).val / 19200 * 19200 ≤ (i 0).val ∧ (i 0).val < (i 0).val / 19200 * 19200 + 19200; omega
  | ⟨1, _⟩ =>
    show win6_2.index ⟨(i 0).val / 19200, ht⟩ (1 : Fin 2) * 64 ≤ (i 1).val
      ∧ (i 1).val < win6_2.index ⟨(i 0).val / 19200, ht⟩ (1 : Fin 2) * 64 + 64
    rw [e5]; omega

/-- After the stage, the result array is the gathered table with every row scaled by its weight. -/
theorem arr6 (c : Dev nD) : ((dat6 V c).arrAt 2 cfg6.N : FVec Ideal S2400000x64 .f32) = Cert.Mgcn.scale (V c main_v36) (V c main_v37) :=
  (dat6 V c).arrAt_eq_of_cover 2 (Cert.Mgcn.scale (V c main_v36) (V c main_v37)) (fun t _ => flushedEq6 V c t) covered6

end Cert.KernelIdeal.RegionValue

end
-- ==== Proof.RegionAdd3.lean ====
/-
  The adding stage as one function of its two tables.

  The stage runs over 25 grid points. At point t it adds rows t·6000 … t·6000 + 5999 of the two tables, entry
  by entry, and writes the sums back to the same rows of the result. Each block's entries are therefore the
  entries of the sum of the two whole tables at those rows, and since row r lies in block r / 6000 the 25
  blocks fill the result: the result array is the sum of the two tables.
-/
import proofs.«125836_j24747601560207_1_alg».proof.Proof.Gen.KernelIdeal.Frame
import proofs.«125836_j24747601560207_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets of a whole-block access, as a constant function. -/
theorem zeroOff3 : (![0, 0] : Fin 2 → Nat) = fun _ => 0 := funext fun a => by fin_cases a <;> rfl

/-- At grid point t every window sits at row block t and column block 0. -/
theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The block sum at an index: the two loaded entries added. -/
theorem payAt3 (x0 x1 : Vec Ideal S6000x64 .f32) (j : S6000x64.Idx) : k3_pay1 x0 x1 j = x0 j + x1 j := by
  unfold k3_pay1
  rw [shapeCast_self, shapeCast_self]
  exact addf_apply _ _ _

/-- An entry of the block sum is an entry of the sum of the two tables, once the block's two operands
    are known to be the tables' entries there. -/
theorem paySum3 (a b : FVec Ideal S150000x64 .f32) (x0 x1 : Vec Ideal S6000x64 .f32) (j : S6000x64.Idx)
    (i : S150000x64.Idx) (h0 : x0 j = a i) (h1 : x1 j = b i) :
    k3_pay1 x0 x1 j = addf (F := Ideal) (s := S150000x64) (φ := .f32) a b i := by
  rw [payAt3, h0, h1]
  exact (addf_apply a b i).symm

/-- Window 0's block at point t is rows t·6000 onwards of the first table. -/
theorem leftBlock3 (c : Dev nD) (t : Fin cfg3.N) (y : S6000x64.Idx) (k : S150000x64.Idx)
    (hk0 : (k 0).val = t.val * 6000 + (y 0).val) (hk1 : (k 1).val = (y 1).val) :
    (iblk3 V c 0 t : Vec Ideal S6000x64 .f32) y = (V c main_v3 : FVec Ideal S150000x64 .f32) k := by
  obtain ⟨e0, e1, -, -, -, -⟩ := blockIdx3 t
  unfold iblk3
  rw [View.read_apply]
  show V c main_v3 _ = V c main_v3 _
  congr 1
  funext a
  apply Fin.ext
  match a with
  | ⟨0, _⟩ => show win3_0.index t (0 : Fin 2) * 6000 + 1 * (y 0).val = (k 0).val; rw [e0, hk0]; omega
  | ⟨1, _⟩ => show win3_0.index t (1 : Fin 2) * 64 + 1 * (y 1).val = (k 1).val; rw [e1, hk1]; omega

/-- Window 1's block at point t is rows t·6000 onwards of the second table. -/
theorem rightBlock3 (c : Dev nD) (t : Fin cfg3.N) (y : S6000x64.Idx) (k : S150000x64.Idx)
    (hk0 : (k 0).val = t.val * 6000 + (y 0).val) (hk1 : (k 1).val = (y 1).val) :
    (iblk3 V c 1 t : Vec Ideal S6000x64 .f32) y = (V c main_v15 : FVec Ideal S150000x64 .f32) k := by
  obtain ⟨-, -, e2, e3, -, -⟩ := blockIdx3 t
  unfold iblk3
  rw [View.read_apply]
  show V c main_v15 _ = V c main_v15 _
  congr 1
  funext a
  apply Fin.ext
  match a with
  | ⟨0, _⟩ => show win3_1.index t (0 : Fin 2) * 6000 + 1 * (y 0).val = (k 0).val; rw [e2, hk0]; omega
  | ⟨1, _⟩ => show win3_1.index t (1 : Fin 2) * 64 + 1 * (y 1).val = (k 1).val; rw [e3, hk1]; omega

/-- What point t writes back is block t of the sum of the two tables: the sum of the two loaded blocks,
    entry by entry, with each block read at the rows t·6000 onwards of its table. -/
theorem flushedEq3 (c : Dev nD) (t : Fin cfg3.N) :
    (dat3 V c).flushed 2 t = ((cfg3.win 2).blk t).view.read (Elt Ideal)
      (addf (F := Ideal) (s := S150000x64) (φ := .f32) (V c main_v3) (V c main_v15)) := by
  show (cfg3.win 2).cut (grid3.coords t) ((dat3 V c).after 2 t) = _
  rw [after3_2]
  unfold out3_2
  rw [View.canon_unit_zero zeroOff3]
  simp only [View.ld_unit_zero (S := S6000x64) zeroOff3]
  obtain ⟨-, -, -, -, e4, e5⟩ := blockIdx3 t
  funext j
  show k3_pay1 (iblk3 V c 0 t) (iblk3 V c 1 t) j
      = addf (F := Ideal) (s := S150000x64) (φ := .f32) (V c main_v3) (V c main_v15) (((cfg3.win 2).blk t).view.emb j)
  have o0 : ((((cfg3.win 2).blk t).view.emb j) 0).val = t.val * 6000 + (j 0).val := by
    show win3_2.index t (0 : Fin 2) * 6000 + 1 * (j 0).val = _; rw [e4]; omega
  have o1 : ((((cfg3.win 2).blk t).view.emb j) 1).val = (j 1).val := by
    show win3_2.index t (1 : Fin 2) * 64 + 1 * (j 1).val = _; rw [e5]; omega
  exact paySum3 (V c main_v3) (V c main_v15) (iblk3 V c 0 t) (iblk3 V c 1 t) j _
    (leftBlock3 V c t j _ o0 o1) (rightBlock3 V c t j _ o0 o1)

/-- An index lies in point t's block exactly when each coordinate lies in the block's range on its axis. -/
theorem memBlock3 (t : Fin cfg3.N) (i : S150000x64.Idx) :
    i ∈ ((cfg3.win 2).blk t).view.set ↔ ∀ a : Fin 2, win3_2.index t a * S6000x64.size a ≤ (i a).val
      ∧ (i a).val < win3_2.index t a * S6000x64.size a + S6000x64.size a := by
  show i ∈ ((View.whole main_v16).slice (win3_2.rect t)).set ↔ _
  rw [View.set_slice_whole, Rect.mem_set_unit]
  exact Iff.rfl

/-- Row r lies in block r / 6000: the 25 row blocks fill the table. -/
theorem covered3 (i : S150000x64.Idx) :
    ∃ t : Fin cfg3.N, (cfg3.win 2).flush t = true ∧ i ∈ ((cfg3.win 2).blk t).view.set := by
  have hi0 : (i 0).val < 150000 := (i 0).isLt
  have hi1 : (i 1).val < 64 := (i 1).isLt
  have ht : (i 0).val / 6000 < cfg3.N := by rw [show cfg3.N = 25 from N_3]; omega
  obtain ⟨-, -, -, -, e4, e5⟩ := blockIdx3 ⟨(i 0).val / 6000, ht⟩
  refine ⟨⟨(i 0).val / 6000, ht⟩, flush3_2 _, ?_⟩
  rw [memBlock3]
  intro a
  match a with
  | ⟨0, _⟩ =>
    show win3_2.index ⟨(i 0).val / 6000, ht⟩ (0 : Fin 2) * 6000 ≤ (i 0).val
      ∧ (i 0).val < win3_2.index ⟨(i 0).val / 6000, ht⟩ (0 : Fin 2) * 6000 + 6000
    rw [e4]; show (i 0).val / 6000 * 6000 ≤ (i 0).val ∧ (i 0).val < (i 0).val / 6000 * 6000 + 6000; omega
  | ⟨1, _⟩ =>
    show win3_2.index ⟨(i 0).val / 6000, ht⟩ (1 : Fin 2) * 64 ≤ (i 1).val
      ∧ (i 1).val < win3_2.index ⟨(i 0).val / 6000, ht⟩ (1 : Fin 2) * 64 + 64
    rw [e5]; omega

/-- After the stage, the result array is the entrywise sum of the two tables. -/
theorem arr3 (c : Dev nD) : ((dat3 V c).arrAt 2 cfg3.N : FVec Ideal S150000x64 .f32)
    = addf (F := Ideal) (s := S150000x64) (φ := .f32) (V c main_v3) (V c main_v15) :=
  (dat3 V c).arrAt_eq_of_cover 2 (addf (F := Ideal) (s := S150000x64) (φ := .f32) (V c main_v3) (V c main_v15))
    (fun t _ => flushedEq3 V c t) covered3

end Cert.KernelIdeal.RegionValue

end
-- ==== Proof.RegionAdd5.lean ====
/- The hand-written module proof/Proof/RegionAdd3.lean laid out for region 5: region 3's names replaced by region 5's, nothing else changed. -/
/-
  The adding stage as one function of its two tables.

  The stage runs over 25 grid points. At point t it adds rows t·6000 … t·6000 + 5999 of the two tables, entry
  by entry, and writes the sums back to the same rows of the result. Each block's entries are therefore the
  entries of the sum of the two whole tables at those rows, and since row r lies in block r / 6000 the 25
  blocks fill the result: the result array is the sum of the two tables.
-/
import proofs.«125836_j24747601560207_1_alg».proof.Proof.Gen.KernelIdeal.Frame
import proofs.«125836_j24747601560207_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets of a whole-block access, as a constant function. -/
theorem zeroOff5 : (![0, 0] : Fin 2 → Nat) = fun _ => 0 := funext fun a => by fin_cases a <;> rfl

/-- At grid point t every window sits at row block t and column block 0. -/
theorem blockIdx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The block sum at an index: the two loaded entries added. -/
theorem payAt5 (x0 x1 : Vec Ideal S6000x64 .f32) (j : S6000x64.Idx) : k5_pay1 x0 x1 j = x0 j + x1 j := by
  unfold k5_pay1
  rw [shapeCast_self, shapeCast_self]
  exact addf_apply _ _ _

/-- An entry of the block sum is an entry of the sum of the two tables, once the block's two operands
    are known to be the tables' entries there. -/
theorem paySum5 (a b : FVec Ideal S150000x64 .f32) (x0 x1 : Vec Ideal S6000x64 .f32) (j : S6000x64.Idx)
    (i : S150000x64.Idx) (h0 : x0 j = a i) (h1 : x1 j = b i) :
    k5_pay1 x0 x1 j = addf (F := Ideal) (s := S150000x64) (φ := .f32) a b i := by
  rw [payAt5, h0, h1]
  exact (addf_apply a b i).symm

/-- Window 0's block at point t is rows t·6000 onwards of the first table. -/
theorem leftBlock5 (c : Dev nD) (t : Fin cfg5.N) (y : S6000x64.Idx) (k : S150000x64.Idx)
    (hk0 : (k 0).val = t.val * 6000 + (y 0).val) (hk1 : (k 1).val = (y 1).val) :
    (iblk5 V c 0 t : Vec Ideal S6000x64 .f32) y = (V c main_v16 : FVec Ideal S150000x64 .f32) k := by
  obtain ⟨e0, e1, -, -, -, -⟩ := blockIdx5 t
  unfold iblk5
  rw [View.read_apply]
  show V c main_v16 _ = V c main_v16 _
  congr 1
  funext a
  apply Fin.ext
  match a with
  | ⟨0, _⟩ => show win5_0.index t (0 : Fin 2) * 6000 + 1 * (y 0).val = (k 0).val; rw [e0, hk0]; omega
  | ⟨1, _⟩ => show win5_0.index t (1 : Fin 2) * 64 + 1 * (y 1).val = (k 1).val; rw [e1, hk1]; omega

/-- Window 1's block at point t is rows t·6000 onwards of the second table. -/
theorem rightBlock5 (c : Dev nD) (t : Fin cfg5.N) (y : S6000x64.Idx) (k : S150000x64.Idx)
    (hk0 : (k 0).val = t.val * 6000 + (y 0).val) (hk1 : (k 1).val = (y 1).val) :
    (iblk5 V c 1 t : Vec Ideal S6000x64 .f32) y = (V c main_v28 : FVec Ideal S150000x64 .f32) k := by
  obtain ⟨-, -, e2, e3, -, -⟩ := blockIdx5 t
  unfold iblk5
  rw [View.read_apply]
  show V c main_v28 _ = V c main_v28 _
  congr 1
  funext a
  apply Fin.ext
  match a with
  | ⟨0, _⟩ => show win5_1.index t (0 : Fin 2) * 6000 + 1 * (y 0).val = (k 0).val; rw [e2, hk0]; omega
  | ⟨1, _⟩ => show win5_1.index t (1 : Fin 2) * 64 + 1 * (y 1).val = (k 1).val; rw [e3, hk1]; omega

/-- What point t writes back is block t of the sum of the two tables: the sum of the two loaded blocks,
    entry by entry, with each block read at the rows t·6000 onwards of its table. -/
theorem flushedEq5 (c : Dev nD) (t : Fin cfg5.N) :
    (dat5 V c).flushed 2 t = ((cfg5.win 2).blk t).view.read (Elt Ideal)
      (addf (F := Ideal) (s := S150000x64) (φ := .f32) (V c main_v16) (V c main_v28)) := by
  show (cfg5.win 2).cut (grid5.coords t) ((dat5 V c).after 2 t) = _
  rw [after5_2]
  unfold out5_2
  rw [View.canon_unit_zero zeroOff5]
  simp only [View.ld_unit_zero (S := S6000x64) zeroOff5]
  obtain ⟨-, -, -, -, e4, e5⟩ := blockIdx5 t
  funext j
  show k5_pay1 (iblk5 V c 0 t) (iblk5 V c 1 t) j
      = addf (F := Ideal) (s := S150000x64) (φ := .f32) (V c main_v16) (V c main_v28) (((cfg5.win 2).blk t).view.emb j)
  have o0 : ((((cfg5.win 2).blk t).view.emb j) 0).val = t.val * 6000 + (j 0).val := by
    show win5_2.index t (0 : Fin 2) * 6000 + 1 * (j 0).val = _; rw [e4]; omega
  have o1 : ((((cfg5.win 2).blk t).view.emb j) 1).val = (j 1).val := by
    show win5_2.index t (1 : Fin 2) * 64 + 1 * (j 1).val = _; rw [e5]; omega
  exact paySum5 (V c main_v16) (V c main_v28) (iblk5 V c 0 t) (iblk5 V c 1 t) j _
    (leftBlock5 V c t j _ o0 o1) (rightBlock5 V c t j _ o0 o1)

/-- An index lies in point t's block exactly when each coordinate lies in the block's range on its axis. -/
theorem memBlock5 (t : Fin cfg5.N) (i : S150000x64.Idx) :
    i ∈ ((cfg5.win 2).blk t).view.set ↔ ∀ a : Fin 2, win5_2.index t a * S6000x64.size a ≤ (i a).val
      ∧ (i a).val < win5_2.index t a * S6000x64.size a + S6000x64.size a := by
  show i ∈ ((View.whole main_v29).slice (win5_2.rect t)).set ↔ _
  rw [View.set_slice_whole, Rect.mem_set_unit]
  exact Iff.rfl

/-- Row r lies in block r / 6000: the 25 row blocks fill the table. -/
theorem covered5 (i : S150000x64.Idx) :
    ∃ t : Fin cfg5.N, (cfg5.win 2).flush t = true ∧ i ∈ ((cfg5.win 2).blk t).view.set := by
  have hi0 : (i 0).val < 150000 := (i 0).isLt
  have hi1 : (i 1).val < 64 := (i 1).isLt
  have ht : (i 0).val / 6000 < cfg5.N := by rw [show cfg5.N = 25 from N_5]; omega
  obtain ⟨-, -, -, -, e4, e5⟩ := blockIdx5 ⟨(i 0).val / 6000, ht⟩
  refine ⟨⟨(i 0).val / 6000, ht⟩, flush5_2 _, ?_⟩
  rw [memBlock5]
  intro a
  match a with
  | ⟨0, _⟩ =>
    show win5_2.index ⟨(i 0).val / 6000, ht⟩ (0 : Fin 2) * 6000 ≤ (i 0).val
      ∧ (i 0).val < win5_2.index ⟨(i 0).val / 6000, ht⟩ (0 : Fin 2) * 6000 + 6000
    rw [e4]; show (i 0).val / 6000 * 6000 ≤ (i 0).val ∧ (i 0).val < (i 0).val / 6000 * 6000 + 6000; omega
  | ⟨1, _⟩ =>
    show win5_2.index ⟨(i 0).val / 6000, ht⟩ (1 : Fin 2) * 64 ≤ (i 1).val
      ∧ (i 1).val < win5_2.index ⟨(i 0).val / 6000, ht⟩ (1 : Fin 2) * 64 + 64
    rw [e5]; omega

/-- After the stage, the result array is the entrywise sum of the two tables. -/
theorem arr5 (c : Dev nD) : ((dat5 V c).arrAt 2 cfg5.N : FVec Ideal S150000x64 .f32)
    = addf (F := Ideal) (s := S150000x64) (φ := .f32) (V c main_v16) (V c main_v28) :=
  (dat5 V c).arrAt_eq_of_cover 2 (addf (F := Ideal) (s := S150000x64) (φ := .f32) (V c main_v16) (V c main_v28))
    (fun t _ => flushedEq5 V c t) covered5

end Cert.KernelIdeal.RegionValue

end
-- ==== Proof.RegionAdd7.lean ====
/- The hand-written module proof/Proof/RegionAdd3.lean laid out for region 7: region 3's names replaced by region 7's, nothing else changed. -/
/-
  The adding stage as one function of its two tables.

  The stage runs over 25 grid points. At point t it adds rows t·6000 … t·6000 + 5999 of the two tables, entry
  by entry, and writes the sums back to the same rows of the result. Each block's entries are therefore the
  entries of the sum of the two whole tables at those rows, and since row r lies in block r / 6000 the 25
  blocks fill the result: the result array is the sum of the two tables.
-/
import proofs.«125836_j24747601560207_1_alg».proof.Proof.Gen.KernelIdeal.Frame
import proofs.«125836_j24747601560207_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets of a whole-block access, as a constant function. -/
theorem zeroOff7 : (![0, 0] : Fin 2 → Nat) = fun _ => 0 := funext fun a => by fin_cases a <;> rfl

/-- At grid point t every window sits at row block t and column block 0. -/
theorem blockIdx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- The block sum at an index: the two loaded entries added. -/
theorem payAt7 (x0 x1 : Vec Ideal S6000x64 .f32) (j : S6000x64.Idx) : k7_pay1 x0 x1 j = x0 j + x1 j := by
  unfold k7_pay1
  rw [shapeCast_self, shapeCast_self]
  exact addf_apply _ _ _

/-- An entry of the block sum is an entry of the sum of the two tables, once the block's two operands
    are known to be the tables' entries there. -/
theorem paySum7 (a b : FVec Ideal S150000x64 .f32) (x0 x1 : Vec Ideal S6000x64 .f32) (j : S6000x64.Idx)
    (i : S150000x64.Idx) (h0 : x0 j = a i) (h1 : x1 j = b i) :
    k7_pay1 x0 x1 j = addf (F := Ideal) (s := S150000x64) (φ := .f32) a b i := by
  rw [payAt7, h0, h1]
  exact (addf_apply a b i).symm

/-- Window 0's block at point t is rows t·6000 onwards of the first table. -/
theorem leftBlock7 (c : Dev nD) (t : Fin cfg7.N) (y : S6000x64.Idx) (k : S150000x64.Idx)
    (hk0 : (k 0).val = t.val * 6000 + (y 0).val) (hk1 : (k 1).val = (y 1).val) :
    (iblk7 V c 0 t : Vec Ideal S6000x64 .f32) y = (V c main_v29 : FVec Ideal S150000x64 .f32) k := by
  obtain ⟨e0, e1, -, -, -, -⟩ := blockIdx7 t
  unfold iblk7
  rw [View.read_apply]
  show V c main_v29 _ = V c main_v29 _
  congr 1
  funext a
  apply Fin.ext
  match a with
  | ⟨0, _⟩ => show win7_0.index t (0 : Fin 2) * 6000 + 1 * (y 0).val = (k 0).val; rw [e0, hk0]; omega
  | ⟨1, _⟩ => show win7_0.index t (1 : Fin 2) * 64 + 1 * (y 1).val = (k 1).val; rw [e1, hk1]; omega

/-- Window 1's block at point t is rows t·6000 onwards of the second table. -/
theorem rightBlock7 (c : Dev nD) (t : Fin cfg7.N) (y : S6000x64.Idx) (k : S150000x64.Idx)
    (hk0 : (k 0).val = t.val * 6000 + (y 0).val) (hk1 : (k 1).val = (y 1).val) :
    (iblk7 V c 1 t : Vec Ideal S6000x64 .f32) y = (V c main_v41 : FVec Ideal S150000x64 .f32) k := by
  obtain ⟨-, -, e2, e3, -, -⟩ := blockIdx7 t
  unfold iblk7
  rw [View.read_apply]
  show V c main_v41 _ = V c main_v41 _
  congr 1
  funext a
  apply Fin.ext
  match a with
  | ⟨0, _⟩ => show win7_1.index t (0 : Fin 2) * 6000 + 1 * (y 0).val = (k 0).val; rw [e2, hk0]; omega
  | ⟨1, _⟩ => show win7_1.index t (1 : Fin 2) * 64 + 1 * (y 1).val = (k 1).val; rw [e3, hk1]; omega

/-- What point t writes back is block t of the sum of the two tables: the sum of the two loaded blocks,
    entry by entry, with each block read at the rows t·6000 onwards of its table. -/
theorem flushedEq7 (c : Dev nD) (t : Fin cfg7.N) :
    (dat7 V c).flushed 2 t = ((cfg7.win 2).blk t).view.read (Elt Ideal)
      (addf (F := Ideal) (s := S150000x64) (φ := .f32) (V c main_v29) (V c main_v41)) := by
  show (cfg7.win 2).cut (grid7.coords t) ((dat7 V c).after 2 t) = _
  rw [after7_2]
  unfold out7_2
  rw [View.canon_unit_zero zeroOff7]
  simp only [View.ld_unit_zero (S := S6000x64) zeroOff7]
  obtain ⟨-, -, -, -, e4, e5⟩ := blockIdx7 t
  funext j
  show k7_pay1 (iblk7 V c 0 t) (iblk7 V c 1 t) j
      = addf (F := Ideal) (s := S150000x64) (φ := .f32) (V c main_v29) (V c main_v41) (((cfg7.win 2).blk t).view.emb j)
  have o0 : ((((cfg7.win 2).blk t).view.emb j) 0).val = t.val * 6000 + (j 0).val := by
    show win7_2.index t (0 : Fin 2) * 6000 + 1 * (j 0).val = _; rw [e4]; omega
  have o1 : ((((cfg7.win 2).blk t).view.emb j) 1).val = (j 1).val := by
    show win7_2.index t (1 : Fin 2) * 64 + 1 * (j 1).val = _; rw [e5]; omega
  exact paySum7 (V c main_v29) (V c main_v41) (iblk7 V c 0 t) (iblk7 V c 1 t) j _
    (leftBlock7 V c t j _ o0 o1) (rightBlock7 V c t j _ o0 o1)

/-- An index lies in point t's block exactly when each coordinate lies in the block's range on its axis. -/
theorem memBlock7 (t : Fin cfg7.N) (i : S150000x64.Idx) :
    i ∈ ((cfg7.win 2).blk t).view.set ↔ ∀ a : Fin 2, win7_2.index t a * S6000x64.size a ≤ (i a).val
      ∧ (i a).val < win7_2.index t a * S6000x64.size a + S6000x64.size a := by
  show i ∈ ((View.whole main_v42).slice (win7_2.rect t)).set ↔ _
  rw [View.set_slice_whole, Rect.mem_set_unit]
  exact Iff.rfl

/-- Row r lies in block r / 6000: the 25 row blocks fill the table. -/
theorem covered7 (i : S150000x64.Idx) :
    ∃ t : Fin cfg7.N, (cfg7.win 2).flush t = true ∧ i ∈ ((cfg7.win 2).blk t).view.set := by
  have hi0 : (i 0).val < 150000 := (i 0).isLt
  have hi1 : (i 1).val < 64 := (i 1).isLt
  have ht : (i 0).val / 6000 < cfg7.N := by rw [show cfg7.N = 25 from N_7]; omega
  obtain ⟨-, -, -, -, e4, e5⟩ := blockIdx7 ⟨(i 0).val / 6000, ht⟩
  refine ⟨⟨(i 0).val / 6000, ht⟩, flush7_2 _, ?_⟩
  rw [memBlock7]
  intro a
  match a with
  | ⟨0, _⟩ =>
    show win7_2.index ⟨(i 0).val / 6000, ht⟩ (0 : Fin 2) * 6000 ≤ (i 0).val
      ∧ (i 0).val < win7_2.index ⟨(i 0).val / 6000, ht⟩ (0 : Fin 2) * 6000 + 6000
    rw [e4]; show (i 0).val / 6000 * 6000 ≤ (i 0).val ∧ (i 0).val < (i 0).val / 6000 * 6000 + 6000; omega
  | ⟨1, _⟩ =>
    show win7_2.index ⟨(i 0).val / 6000, ht⟩ (1 : Fin 2) * 64 ≤ (i 1).val
      ∧ (i 1).val < win7_2.index ⟨(i 0).val / 6000, ht⟩ (1 : Fin 2) * 64 + 64
    rw [e5]; omega

/-- After the stage, the result array is the entrywise sum of the two tables. -/
theorem arr7 (c : Dev nD) : ((dat7 V c).arrAt 2 cfg7.N : FVec Ideal S150000x64 .f32)
    = addf (F := Ideal) (s := S150000x64) (φ := .f32) (V c main_v29) (V c main_v41) :=
  (dat7 V c).arrAt_eq_of_cover 2 (addf (F := Ideal) (s := S150000x64) (φ := .f32) (V c main_v29) (V c main_v41))
    (fun t _ => flushedEq7 V c t) covered7

end Cert.KernelIdeal.RegionValue

end
-- ==== Proof.KernelValue.lean ====
/-
  The idealized kernel program's two results as functions of its seven arguments.

  Between two kernel regions the host lines compute from the buffers as the previous region left them; a region
  leaves its output array at its stage's function of its input arrays (the Region modules) and every other buffer as it
  found it. Walking the seventeen boundaries in order gives: the projected items, the normalised table, then three
  times a gathered and scaled table, its accumulated scatter and the running sum, and at the end a quarter of the sum
  cut into its user rows and its item rows.
-/
import proofs.«125836_j24747601560207_1_alg».proof.Proof.Gen.KernelIdeal.Frame
import proofs.«125836_j24747601560207_1_alg».proof.Proof.Spec
import proofs.«125836_j24747601560207_1_alg».proof.Proof.RegionProj
import proofs.«125836_j24747601560207_1_alg».proof.Proof.RegionNorm
import proofs.«125836_j24747601560207_1_alg».proof.Proof.RegionScale2
import proofs.«125836_j24747601560207_1_alg».proof.Proof.RegionScale4
import proofs.«125836_j24747601560207_1_alg».proof.Proof.RegionScale6
import proofs.«125836_j24747601560207_1_alg».proof.Proof.RegionAdd3
import proofs.«125836_j24747601560207_1_alg».proof.Proof.RegionAdd5
import proofs.«125836_j24747601560207_1_alg».proof.Proof.RegionAdd7
import Idealize.ShloMosaic.Lib.StableHlo.Run
import Idealize.ShloMosaic.Lib.ValueLayout

set_option maxRecDepth 16384

noncomputable section

namespace Cert.KernelIdeal.Thread

open Idealize.ShloMosaic Idealize.ShloMosaic.TcCoe Idealize.ShloMosaic.ValueIdx Idealize.ShloMosaic.StableHlo Idealize.SL.Sem
open Cert.KernelIdeal Cert.KernelIdeal.Gen Cert.KernelIdeal.RegionValue

variable (m : (ℓ : Loc nD τ sig) → Buf (Elt Ideal) ℓ) (ρ : Dev nD → PrngReg)

/-- The shape facts of the program's host lines. -/
theorem wit : Cert.Mgcn.Wit :=
  ⟨Facts₀.concatenates_S100000x64_S50000x64_S150000x64_d0, Facts₀.bcast_S_S2400000, Facts₀.bcast_S2400000_S2400000x1_0,
    Facts₀.bcast_S_S150000x64, Facts₀.slices_S150000x64_S100000x64_0_0, Facts₀.slices_S150000x64_S50000x64_100000_0⟩

abbrev gK : GatherDims S150000x64 S2400000x1 S2400000x64 := gather_S150000x64_S2400000x1_S2400000x64_1_0_n_n_0_1_164
abbrev sK : ScatterDims S150000x64 S2400000x1 S2400000x64 := scatter_S150000x64_S2400000x1_S2400000x64_1_0_0_1

/-- The seven arguments at launch. -/
abbrev a0 (c : Dev nD) : FVec Ideal S50000x512 .f32 := m ((c : Thread nD τ).loc main_arg0)
abbrev a1 (c : Dev nD) : FVec Ideal S100000x64 .f32 := m ((c : Thread nD τ).loc main_arg1)
abbrev a2 (c : Dev nD) : FVec Ideal S512x64 .f32 := m ((c : Thread nD τ).loc main_arg2)
abbrev a3 (c : Dev nD) : FVec Ideal S64 .f32 := m ((c : Thread nD τ).loc main_arg3)
abbrev a4 (c : Dev nD) : IVec S2400000 32 := m ((c : Thread nD τ).loc main_arg4)
abbrev a5 (c : Dev nD) : IVec S2400000 32 := m ((c : Thread nD τ).loc main_arg5)
abbrev a6 (c : Dev nD) : FVec Ideal S2400000 .f32 := m ((c : Thread nD τ).loc main_arg6)

/-- The four tables. -/
def e0 (c : Dev nD) : FVec Ideal S150000x64 .f32 := Cert.Mgcn.emb0 wit (a0 m c) (a1 m c) (a2 m c) (a3 m c)
def e1 (c : Dev nD) : FVec Ideal S150000x64 .f32 := Cert.Mgcn.layer gK sK wit (e0 m c) (a4 m c) (a5 m c) (a6 m c)
def e2 (c : Dev nD) : FVec Ideal S150000x64 .f32 := Cert.Mgcn.layer gK sK wit (e1 m c) (a4 m c) (a5 m c) (a6 m c)
def e3 (c : Dev nD) : FVec Ideal S150000x64 .f32 := Cert.Mgcn.layer gK sK wit (e2 m c) (a4 m c) (a5 m c) (a6 m c)

/-! ## Up to the normalised table -/

/-- One stretch of host lines read at a buffer: the line that writes it gives its function of the buffers before the
    stretch, every other line leaves it. -/
local macro "host_at " V:ident W:ident ops:ident : tactic => `(tactic| (dsimp only [$V:ident, $W:ident, $ops:ident]; after_results))
local macro "host_at' " W:ident ops:ident : tactic => `(tactic| (dsimp only [$W:ident, $ops:ident]; after_results))

theorem V1_v0 (c : Dev nD) : (fun i : S64.Idx => (V1 m ρ c main_v0 : FVec Ideal S1x64 .f32) (ix2 (0 : Fin 1) (i 0))) = a3 m c := by
  funext i
  host_at V1 W1 hostOps0
  refine (shapeCast_a_1a_apply (a3 m c) Facts₀.shapeCasts_S64_S1x64 (0 : Fin 1) (i 0)).trans ?_
  exact congrArg (a3 m c) (eq_ix1 i).symm

theorem V1_a0 (c : Dev nD) : V1 m ρ c main_arg0 = a0 m c := by host_at V1 W1 hostOps0
theorem V1_a2 (c : Dev nD) : V1 m ρ c main_arg2 = a2 m c := by host_at V1 W1 hostOps0

theorem W2_v1 (c : Dev nD) : (W2 m ρ c (Proc.devRef .tc main_v1) : FVec Ideal S50000x64 .f32) = Cert.Mgcn.proj (a0 m c) (a2 m c) (a3 m c) := by
  refine (W2_arr m ρ c 3).trans ((arr0 (V1 m ρ) c).trans ?_)
  rw [V1_a0, V1_a2, V1_v0]

theorem W2_a1 (c : Dev nD) : W2 m ρ c (Proc.devRef .tc main_arg1) = a1 m c := by
  rw [W2_of_ne m ρ c main_arg1 (by decide)]; host_at' W1 hostOps0
theorem W2_a4 (c : Dev nD) : W2 m ρ c (Proc.devRef .tc main_arg4) = a4 m c := by
  rw [W2_of_ne m ρ c main_arg4 (by decide)]; host_at' W1 hostOps0
theorem W2_a5 (c : Dev nD) : W2 m ρ c (Proc.devRef .tc main_arg5) = a5 m c := by
  rw [W2_of_ne m ρ c main_arg5 (by decide)]; host_at' W1 hostOps0
theorem W2_a6 (c : Dev nD) : W2 m ρ c (Proc.devRef .tc main_arg6) = a6 m c := by
  rw [W2_of_ne m ρ c main_arg6 (by decide)]; host_at' W1 hostOps0

theorem V3_v2 (c : Dev nD) : (V3 m ρ c main_v2 : FVec Ideal S150000x64 .f32)
    = concatenate S150000x64 0 [⟨S100000x64, a1 m c⟩, ⟨S50000x64, Cert.Mgcn.proj (a0 m c) (a2 m c) (a3 m c)⟩] Facts₀.concatenates_S100000x64_S50000x64_S150000x64_d0 := by
  host_at V3 W3 hostOps1
  rw [W2_a1, W2_v1]

theorem W4_v3 (c : Dev nD) : (W4 m ρ c (Proc.devRef .tc main_v3) : FVec Ideal S150000x64 .f32) = e0 m c := by
  refine (W4_arr m ρ c 1).trans ((arr1 (V3 m ρ) c).trans ?_)
  rw [V3_v2]; rfl

/-! ## The three propagation steps -/

theorem W4_a4 (c : Dev nD) : W4 m ρ c (Proc.devRef .tc main_arg4) = a4 m c := by
  rw [W4_of_ne m ρ c main_arg4 (by decide)]; host_at' W3 hostOps1; exact W2_a4 m ρ c
theorem W4_a5 (c : Dev nD) : W4 m ρ c (Proc.devRef .tc main_arg5) = a5 m c := by
  rw [W4_of_ne m ρ c main_arg5 (by decide)]; host_at' W3 hostOps1; exact W2_a5 m ρ c
theorem W4_a6 (c : Dev nD) : W4 m ρ c (Proc.devRef .tc main_arg6) = a6 m c := by
  rw [W4_of_ne m ρ c main_arg6 (by decide)]; host_at' W3 hostOps1; exact W2_a6 m ρ c

/-- The rows of a table named by `cols`. -/
abbrev gath (c : Dev nD) (e : FVec Ideal S150000x64 .f32) : FVec Ideal S2400000x64 .f32 :=
  Host.gather gK e (Cert.Mgcn.startIdx wit (a5 m c))
/-- The weights as a column. -/
abbrev wcol (c : Dev nD) : FVec Ideal S2400000x1 .f32 := broadcastInDim S2400000x1 ![0] Facts₀.bcast_S2400000_S2400000x1_0 (a6 m c)

theorem V5_v10 (c : Dev nD) : (V5 m ρ c main_v10 : FVec Ideal S2400000x64 .f32) = gath m c (e0 m c) := by
  host_at V5 W5 hostOps2
  rw [W4_v3, W4_a5]; rfl
theorem V5_v11 (c : Dev nD) : (V5 m ρ c main_v11 : FVec Ideal S2400000x1 .f32) = wcol m c := by
  host_at V5 W5 hostOps2
  rw [W4_a6]

theorem W6_v12 (c : Dev nD) : (W6 m ρ c (Proc.devRef .tc main_v12) : FVec Ideal S2400000x64 .f32) = Cert.Mgcn.scale (gath m c (e0 m c)) (wcol m c) := by
  refine (W6_arr m ρ c 2).trans ((arr2 (V5 m ρ) c).trans ?_)
  rw [V5_v10, V5_v11]
theorem W6_v3 (c : Dev nD) : (W6 m ρ c (Proc.devRef .tc main_v3) : FVec Ideal S150000x64 .f32) = e0 m c := by
  rw [W6_of_ne m ρ c main_v3 (by decide)]; host_at' W5 hostOps2; exact W4_v3 m ρ c
theorem W6_a4 (c : Dev nD) : W6 m ρ c (Proc.devRef .tc main_arg4) = a4 m c := by
  rw [W6_of_ne m ρ c main_arg4 (by decide)]; host_at' W5 hostOps2; exact W4_a4 m ρ c
theorem W6_a5 (c : Dev nD) : W6 m ρ c (Proc.devRef .tc main_arg5) = a5 m c := by
  rw [W6_of_ne m ρ c main_arg5 (by decide)]; host_at' W5 hostOps2; exact W4_a5 m ρ c
theorem W6_a6 (c : Dev nD) : W6 m ρ c (Proc.devRef .tc main_arg6) = a6 m c := by
  rw [W6_of_ne m ρ c main_arg6 (by decide)]; host_at' W5 hostOps2; exact W4_a6 m ρ c

theorem V7_v15 (c : Dev nD) : (V7 m ρ c main_v15 : FVec Ideal S150000x64 .f32) = e1 m c := by
  host_at V7 W7 hostOps3
  rw [W6_v12, W6_a4]; rfl
theorem V7_v3 (c : Dev nD) : (V7 m ρ c main_v3 : FVec Ideal S150000x64 .f32) = e0 m c := by
  host_at V7 W7 hostOps3; exact W6_v3 m ρ c

theorem W8_v16 (c : Dev nD) : (W8 m ρ c (Proc.devRef .tc main_v16) : FVec Ideal S150000x64 .f32) = addf (e0 m c) (e1 m c) := by
  refine (W8_arr m ρ c 2).trans ((arr3 (V7 m ρ) c).trans ?_)
  rw [V7_v3, V7_v15]
theorem W8_v15 (c : Dev nD) : (W8 m ρ c (Proc.devRef .tc main_v15) : FVec Ideal S150000x64 .f32) = e1 m c :=
  (W8_arr m ρ c 1).trans (((dat3 (V7 m ρ) c).arrAt_in 1 rfl _).trans ((A_eq3 (V7 m ρ) c 1).trans (V7_v15 m ρ c)))
theorem W8_a4 (c : Dev nD) : W8 m ρ c (Proc.devRef .tc main_arg4) = a4 m c := by
  rw [W8_of_ne m ρ c main_arg4 (by decide)]; host_at' W7 hostOps3; exact W6_a4 m ρ c
theorem W8_a5 (c : Dev nD) : W8 m ρ c (Proc.devRef .tc main_arg5) = a5 m c := by
  rw [W8_of_ne m ρ c main_arg5 (by decide)]; host_at' W7 hostOps3; exact W6_a5 m ρ c
theorem W8_a6 (c : Dev nD) : W8 m ρ c (Proc.devRef .tc main_arg6) = a6 m c := by
  rw [W8_of_ne m ρ c main_arg6 (by decide)]; host_at' W7 hostOps3; exact W6_a6 m ρ c

theorem V9_v23 (c : Dev nD) : (V9 m ρ c main_v23 : FVec Ideal S2400000x64 .f32) = gath m c (e1 m c) := by
  host_at V9 W9 hostOps4
  rw [W8_v15, W8_a5]; rfl
theorem V9_v24 (c : Dev nD) : (V9 m ρ c main_v24 : FVec Ideal S2400000x1 .f32) = wcol m c := by
  host_at V9 W9 hostOps4
  rw [W8_a6]

theorem W10_v25 (c : Dev nD) : (W10 m ρ c (Proc.devRef .tc main_v25) : FVec Ideal S2400000x64 .f32) = Cert.Mgcn.scale (gath m c (e1 m c)) (wcol m c) := by
  refine (W10_arr m ρ c 2).trans ((arr4 (V9 m ρ) c).trans ?_)
  rw [V9_v23, V9_v24]
theorem W10_v16 (c : Dev nD) : (W10 m ρ c (Proc.devRef .tc main_v16) : FVec Ideal S150000x64 .f32) = addf (e0 m c) (e1 m c) := by
  rw [W10_of_ne m ρ c main_v16 (by decide)]; host_at' W9 hostOps4; exact W8_v16 m ρ c
theorem W10_a4 (c : Dev nD) : W10 m ρ c (Proc.devRef .tc main_arg4) = a4 m c := by
  rw [W10_of_ne m ρ c main_arg4 (by decide)]; host_at' W9 hostOps4; exact W8_a4 m ρ c
theorem W10_a5 (c : Dev nD) : W10 m ρ c (Proc.devRef .tc main_arg5) = a5 m c := by
  rw [W10_of_ne m ρ c main_arg5 (by decide)]; host_at' W9 hostOps4; exact W8_a5 m ρ c
theorem W10_a6 (c : Dev nD) : W10 m ρ c (Proc.devRef .tc main_arg6) = a6 m c := by
  rw [W10_of_ne m ρ c main_arg6 (by decide)]; host_at' W9 hostOps4; exact W8_a6 m ρ c

theorem V11_v28 (c : Dev nD) : (V11 m ρ c main_v28 : FVec Ideal S150000x64 .f32) = e2 m c := by
  host_at V11 W11 hostOps5
  rw [W10_v25, W10_a4]; rfl
theorem V11_v16 (c : Dev nD) : (V11 m ρ c main_v16 : FVec Ideal S150000x64 .f32) = addf (e0 m c) (e1 m c) := by
  host_at V11 W11 hostOps5; exact W10_v16 m ρ c

theorem W12_v29 (c : Dev nD) : (W12 m ρ c (Proc.devRef .tc main_v29) : FVec Ideal S150000x64 .f32) = addf (addf (e0 m c) (e1 m c)) (e2 m c) := by
  refine (W12_arr m ρ c 2).trans ((arr5 (V11 m ρ) c).trans ?_)
  rw [V11_v16, V11_v28]
theorem W12_v28 (c : Dev nD) : (W12 m ρ c (Proc.devRef .tc main_v28) : FVec Ideal S150000x64 .f32) = e2 m c :=
  (W12_arr m ρ c 1).trans (((dat5 (V11 m ρ) c).arrAt_in 1 rfl _).trans ((A_eq5 (V11 m ρ) c 1).trans (V11_v28 m ρ c)))
theorem W12_a4 (c : Dev nD) : W12 m ρ c (Proc.devRef .tc main_arg4) = a4 m c := by
  rw [W12_of_ne m ρ c main_arg4 (by decide)]; host_at' W11 hostOps5; exact W10_a4 m ρ c
theorem W12_a5 (c : Dev nD) : W12 m ρ c (Proc.devRef .tc main_arg5) = a5 m c := by
  rw [W12_of_ne m ρ c main_arg5 (by decide)]; host_at' W11 hostOps5; exact W10_a5 m ρ c
theorem W12_a6 (c : Dev nD) : W12 m ρ c (Proc.devRef .tc main_arg6) = a6 m c := by
  rw [W12_of_ne m ρ c main_arg6 (by decide)]; host_at' W11 hostOps5; exact W10_a6 m ρ c

theorem V13_v36 (c : Dev nD) : (V13 m ρ c main_v36 : FVec Ideal S2400000x64 .f32) = gath m c (e2 m c) := by
  host_at V13 W13 hostOps6
  rw [W12_v28, W12_a5]; rfl
theorem V13_v37 (c : Dev nD) : (V13 m ρ c main_v37 : FVec Ideal S2400000x1 .f32) = wcol m c := by
  host_at V13 W13 hostOps6
  rw [W12_a6]

theorem W14_v38 (c : Dev nD) : (W14 m ρ c (Proc.devRef .tc main_v38) : FVec Ideal S2400000x64 .f32) = Cert.Mgcn.scale (gath m c (e2 m c)) (wcol m c) := by
  refine (W14_arr m ρ c 2).trans ((arr6 (V13 m ρ) c).trans ?_)
  rw [V13_v36, V13_v37]
theorem W14_v29 (c : Dev nD) : (W14 m ρ c (Proc.devRef .tc main_v29) : FVec Ideal S150000x64 .f32) = addf (addf (e0 m c) (e1 m c)) (e2 m c) := by
  rw [W14_of_ne m ρ c main_v29 (by decide)]; host_at' W13 hostOps6; exact W12_v29 m ρ c
theorem W14_a4 (c : Dev nD) : W14 m ρ c (Proc.devRef .tc main_arg4) = a4 m c := by
  rw [W14_of_ne m ρ c main_arg4 (by decide)]; host_at' W13 hostOps6; exact W12_a4 m ρ c

theorem V15_v41 (c : Dev nD) : (V15 m ρ c main_v41 : FVec Ideal S150000x64 .f32) = e3 m c := by
  host_at V15 W15 hostOps7
  rw [W14_v38, W14_a4]; rfl
theorem V15_v29 (c : Dev nD) : (V15 m ρ c main_v29 : FVec Ideal S150000x64 .f32) = addf (addf (e0 m c) (e1 m c)) (e2 m c) := by
  host_at V15 W15 hostOps7; exact W14_v29 m ρ c

theorem W16_v42 (c : Dev nD) : (W16 m ρ c (Proc.devRef .tc main_v42) : FVec Ideal S150000x64 .f32)
    = addf (addf (addf (e0 m c) (e1 m c)) (e2 m c)) (e3 m c) := by
  refine (W16_arr m ρ c 2).trans ((arr7 (V15 m ρ) c).trans ?_)
  rw [V15_v29, V15_v41]

/-! ## The results -/

/-- The mean table, as the four tables' sum over four. -/
theorem out_eq (c : Dev nD) : Cert.Mgcn.out gK sK wit (a0 m c) (a1 m c) (a2 m c) (a3 m c) (a4 m c) (a5 m c) (a6 m c)
    = Cert.Mgcn.light wit (e0 m c) (e1 m c) (e2 m c) (e3 m c) := rfl

/-- The first result holds the user rows of the mean table. -/
theorem users_eq (c : Dev nD) : (W17 m ρ c (Proc.devRef .tc main_v45) : FVec Ideal S100000x64 .f32)
    = Cert.Mgcn.users wit (Cert.Mgcn.out gK sK wit (a0 m c) (a1 m c) (a2 m c) (a3 m c) (a4 m c) (a5 m c) (a6 m c)) := by
  rw [out_eq]
  host_at' W17 hostOps8
  rw [W16_v42]; rfl

/-- The second result holds its item rows. -/
theorem items_eq (c : Dev nD) : (W17 m ρ c (Proc.devRef .tc main_v46) : FVec Ideal S50000x64 .f32)
    = Cert.Mgcn.items wit (Cert.Mgcn.out gK sK wit (a0 m c) (a1 m c) (a2 m c) (a3 m c) (a4 m c) (a5 m c) (a6 m c)) := by
  rw [out_eq]
  host_at' W17 hostOps8
  rw [W16_v42]; rfl

end Cert.KernelIdeal.Thread

end
-- ==== Proof.RefOps.lean ====
/-
  The host's spellings of the three row-wise stages are the functions of Spec.lean.
-/
import proofs.«125836_j24747601560207_1_alg».proof.Proof.Spec
import proofs.«125836_j24747601560207_1_alg».proof.Proof.LibTile
import proofs.«125836_j24747601560207_1_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section

namespace Cert.Mgcn

open Idealize.ShloMosaic Idealize.ShloMosaic.ValueIdx

abbrev sB1 : Shape := ⟨2, ![1, 64]⟩
abbrev sRows : Shape := ⟨1, ![150000]⟩
abbrev sRows1 : Shape := ⟨2, ![150000, 1]⟩

/-- The host's product plus the bias row spread over the rows is `proj`. -/
theorem proj_host (d : DotDims sFeat sW sItem) (hd : d = DotDims.plain 50000 512 64)
    (h1 : sB.BroadcastsInDim sB1 ![1]) (h2 : sB1.BroadcastsInDim sItem ![0, 1])
    (a : FVec Ideal sFeat .f32) (w : FVec Ideal sW .f32) (b : FVec Ideal sB .f32) :
    addf (Host.dotGeneral d none a w) (broadcastInDim sItem ![0, 1] h2 (broadcastInDim sB1 ![1] h1 b)) = proj a w b := by
  subst hd
  funext i
  obtain ⟨p, q, rfl⟩ : ∃ (p : Fin 50000) (q : Fin 64), i = ix2 p q := ⟨i 0, i 1, eq_ix2 i⟩
  -- the bias row spread over the rows reads, at (p, q), the bias at q
  have eb : broadcastInDim sItem ![0, 1] h2 (broadcastInDim sB1 ![1] h1 b) (ix2 p q) = b (ix1 q) := by
    refine (broadcastInDim_apply _ h2 _ (ix2 p q) (ix2 (0 : Fin 1) q) fun ax => ?_).trans ?_
    · match ax with
      | ⟨0, _⟩ => rfl
      | ⟨1, _⟩ =>
        show q.val = if (64 : ℕ) = 1 then 0 else q.val
        rw [if_neg (by omega)]
    · refine broadcastInDim_apply _ h1 b (ix2 (0 : Fin 1) q) (ix1 q) fun ax => ?_
      match ax with
      | ⟨0, _⟩ =>
        show q.val = if (64 : ℕ) = 1 then 0 else q.val
        rw [if_neg (by omega)]
  show Host.dotGeneral (F := Ideal) (DotDims.plain 50000 512 64) none a w (ix2 p q)
      + broadcastInDim sItem ![0, 1] h2 (broadcastInDim sB1 ![1] h1 b) (ix2 p q)
    = (∑ x : Fin 512, a (ix2 p x) * w (ix2 x q)) + b (ix1 q)
  rw [Cert.PlainProduct.dotGeneral_apply none a w p q, eb]

/-- The host's row normalisation is `nrm`. -/
theorem nrm_host (hr : sAll.ReducesTo [1] sRows) (hu : 0 < s0.numel)
    (hb1 : sRows.BroadcastsInDim sRows1 ![0]) (hb0 : s0.BroadcastsInDim sRows1 ![]) (hb2 : sRows1.BroadcastsInDim sAll ![0, 1])
    (x : FVec Ideal sAll .f32) :
    Host.divf x (broadcastInDim sAll ![0, 1] hb2
      (maximumf (Host.sqrt (broadcastInDim sRows1 ![0] hb1 (Host.reduceAdd (mulf x x) (constant s0 .f32 0x00000000#32) hr hu)))
        (broadcastInDim sRows1 ![] hb0 (constant s0 .f32 0x2B8CBCCC#32)))) = nrm x := by
  funext i
  obtain ⟨p, q, rfl⟩ : ∃ (p : Fin 150000) (q : Fin 64), i = ix2 p q := ⟨i 0, i 1, eq_ix2 i⟩
  have hR : sAll.Reduces [1] sRows := by decide
  -- the entries of row p of x * x summed from any initial constant: that constant plus the sum of the squares of row p
  have es : ∀ c : BitVec FTy.f32.bits, Host.reduceAdd (mulf x x) (constant s0 .f32 c) hr hu (ix1 p)
      = Ideal.ofBits .f32 c + ∑ k : Fin 64, x (ix2 p k) * x (ix2 p k) := fun c => by
    refine (Ideal.hostReduceAdd_single hr hR (mulf x x) (Ideal.ofBits .f32 c) (ix1 p)).trans ?_
    refine congrArg (Ideal.ofBits .f32 c + ·) ?_
    exact Finset.sum_congr rfl fun k _ => congrArg (fun j => x j * x j) (funext fun ax => Fin.ext (by
      match ax with
      | ⟨0, _⟩ => rfl
      | ⟨1, _⟩ => rfl))
  -- a constant spread over a column is that constant everywhere
  have ek : ∀ (c : BitVec FTy.f32.bits) (j : sRows1.Idx),
      broadcastInDim sRows1 ![] hb0 (constant (F := Ideal) s0 .f32 c) j = Ideal.ofBits .f32 c := fun _ _ => rfl
  -- the entrywise operations read at an index
  have em : ∀ (A B : FVec Ideal sRows1 .f32) (j : sRows1.Idx), maximumf A B j = max (A j) (B j) := fun _ _ _ => rfl
  have eq : ∀ (A : FVec Ideal sRows1 .f32) (j : sRows1.Idx), Host.sqrt A j = Ideal.sqrt (A j) := fun _ _ => rfl
  have edv : ∀ (A B : FVec Ideal sAll .f32) (j : sAll.Idx), Host.divf A B j = Ideal.div (A j) (B j) := fun _ _ _ => rfl
  -- the column of row sums, at (p, 0): the sum of the squares of row p (the initial constant is zero)
  have ec : broadcastInDim sRows1 ![0] hb1 (Host.reduceAdd (mulf x x) (constant s0 .f32 0x00000000#32) hr hu) (ix2 p (0 : Fin 1))
      = ∑ k : Fin 64, x (ix2 p k) * x (ix2 p k) := by
    refine (broadcastInDim_apply _ hb1 _ (ix2 p (0 : Fin 1)) (ix1 p) fun ax => ?_).trans ?_
    · match ax with
      | ⟨0, _⟩ =>
        show p.val = if (150000 : ℕ) = 1 then 0 else p.val
        rw [if_neg (by omega)]
    · rw [es, Ideal.ofBits_zero_f32, zero_add]
  rw [edv, nrm_apply]
  refine congrArg (Ideal.div (x (ix2 p q))) ?_
  -- the divisor column spread along the rows reads, at (p, q), the column at (p, 0)
  refine (broadcastInDim_apply _ hb2 _ (ix2 p q) (ix2 p (0 : Fin 1)) fun ax => ?_).trans ?_
  · match ax with
    | ⟨0, _⟩ =>
      show p.val = if (150000 : ℕ) = 1 then 0 else p.val
      rw [if_neg (by omega)]
    | ⟨1, _⟩ => rfl
  · rw [em, eq, ek, ec]

/-- The host's product with the weight column spread along the rows is `scale`. -/
theorem scale_host (hb : sNnz1.BroadcastsInDim sNnzD ![0, 1]) (g : FVec Ideal sNnzD .f32) (v : FVec Ideal sNnz1 .f32) :
    mulf g (broadcastInDim sNnzD ![0, 1] hb v) = scale g v := by
  funext i
  obtain ⟨p, q, rfl⟩ : ∃ (p : Fin 2400000) (q : Fin 64), i = ix2 p q := ⟨i 0, i 1, eq_ix2 i⟩
  show g (ix2 p q) * broadcastInDim sNnzD ![0, 1] hb v (ix2 p q) = g (ix2 p q) * v (ix2 p (0 : Fin 1))
  refine congrArg (g (ix2 p q) * ·) ?_
  refine broadcastInDim_apply _ hb v (ix2 p q) (ix2 p (0 : Fin 1)) fun ax => ?_
  match ax with
  | ⟨0, _⟩ =>
    show p.val = if (2400000 : ℕ) = 1 then 0 else p.val
    rw [if_neg (by omega)]
  | ⟨1, _⟩ => rfl

end Cert.Mgcn

end
-- ==== Proof.RefValue.lean ====
/-
  The idealized reference's two results as the same functions of its seven arguments: its matrix product plus the
  bias row is the projection, its row normalisation and its product with the spread weight column are the stages of
  Spec.lean, and the rest of its lines are the very host operations those functions are made of.
-/
import proofs.«125836_j24747601560207_1_alg».proof.Proof.Gen.ReferenceIdeal.Run
import proofs.«125836_j24747601560207_1_alg».proof.Proof.Gen.ReferenceIdeal.Read
import proofs.«125836_j24747601560207_1_alg».proof.Proof.Spec
import proofs.«125836_j24747601560207_1_alg».proof.Proof.RefOps

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.ReferenceIdeal.Read

variable (m : (ℓ : Loc nD τ sig) → Buf (Elt Ideal) ℓ)

/-- The shape facts of the reference's host lines. -/
theorem wit : Cert.Mgcn.Wit :=
  ⟨Facts₀.concatenates_S100000x64_S50000x64_S150000x64_d0, Facts₀.bcast_S_S2400000, Facts₀.bcast_S2400000_S2400000x1_0,
    Facts₀.bcast_S_S150000x64, Facts₀.slices_S150000x64_S100000x64_0_0, Facts₀.slices_S150000x64_S50000x64_100000_0⟩

abbrev gR : GatherDims S150000x64 S2400000x1 S2400000x64 := gather_S150000x64_S2400000x1_S2400000x64_1_0_n_n_0_1_164
abbrev sR : ScatterDims S150000x64 S2400000x1 S2400000x64 := scatter_S150000x64_S2400000x1_S2400000x64_1_0_0_1

theorem proj_ref (a : FVec Ideal S50000x512 .f32) (w : FVec Ideal S512x64 .f32) (b : FVec Ideal S64 .f32) :
    addf (Host.dotGeneral dot_S50000x512_S512x64_S50000x64_1_0_0_1_n_n none a w)
      (broadcastInDim S50000x64 ![0, 1] Facts₀.bcast_S1x64_S50000x64_0_1 (broadcastInDim S1x64 ![1] Facts₀.bcast_S64_S1x64_1 b))
    = Cert.Mgcn.proj a w b :=
  Cert.Mgcn.proj_host _ rfl _ _ a w b

theorem nrm_ref (x : FVec Ideal S150000x64 .f32) :
    Host.divf x (broadcastInDim S150000x64 ![0, 1] Facts₀.bcast_S150000x1_S150000x64_0_1
      (maximumf (Host.sqrt (broadcastInDim S150000x1 ![0] Facts₀.bcast_S150000_S150000x1_0
          (Host.reduceAdd (mulf x x) (constant S_ .f32 0x00000000#32) Facts₀.reducesTo_S150000x64_S150000_d1 Facts₀.h_S_)))
        (broadcastInDim S150000x1 ![] Facts₀.bcast_S_S150000x1 (constant S_ .f32 0x2B8CBCCC#32)))) = Cert.Mgcn.nrm x :=
  Cert.Mgcn.nrm_host _ _ _ _ _ x

theorem scale_ref (g : FVec Ideal S2400000x64 .f32) (v : FVec Ideal S2400000x1 .f32) :
    mulf g (broadcastInDim S2400000x64 ![0, 1] Facts₀.bcast_S2400000x1_S2400000x64_0_1 v) = Cert.Mgcn.scale g v :=
  Cert.Mgcn.scale_host _ g v

variable (x0 : FVec Ideal S50000x512 .f32) (x1 : FVec Ideal S100000x64 .f32) (x2 : FVec Ideal S512x64 .f32) (x3 : FVec Ideal S64 .f32)
  (x4 x5 : IVec S2400000 32) (x6 : FVec Ideal S2400000 .f32)

/-- The reference's projected items. -/
theorem stage_proj : val_main_v3 (F := Ideal) x0 x2 x3 = Cert.Mgcn.proj x0 x2 x3 := proj_ref x0 x2 x3

/-- Its normalised table. -/
theorem stage_emb0 : val_main_v12 (F := Ideal) x0 x1 x2 x3 = Cert.Mgcn.emb0 wit x0 x1 x2 x3 := by
  simp only [val_main_v12, val_main_v11, val_main_v10, val_main_v9, val_main_cst_0, val_main_v8, val_main_v7, val_main_v6, val_main_cst, val_main_v5]
  rw [nrm_ref]
  simp only [val_main_v4]
  rw [stage_proj]; rfl

/-- Its three propagation steps. -/
theorem stage_layer1 : val_main_v25 (F := Ideal) x0 x1 x2 x3 x4 x5 x6
    = Cert.Mgcn.layer gR sR wit (val_main_v12 (F := Ideal) x0 x1 x2 x3) x4 x5 x6 := by
  simp only [val_main_v25, val_main_v23, val_main_cst_2, val_main_v24, val_main_v22, val_main_v21, val_main_v20, val_main_v19, val_main_v18, val_main_v17, val_main_v16, val_main_v15, val_main_c_1, val_main_v14, val_main_v13, val_main_c]
  rw [scale_ref]; rfl
theorem stage_layer2 : val_main_v39 (F := Ideal) x0 x1 x2 x3 x4 x5 x6
    = Cert.Mgcn.layer gR sR wit (val_main_v25 (F := Ideal) x0 x1 x2 x3 x4 x5 x6) x4 x5 x6 := by
  simp only [val_main_v39, val_main_v37, val_main_cst_5, val_main_v38, val_main_v36, val_main_v35, val_main_v34, val_main_v33, val_main_v32, val_main_v31, val_main_v30, val_main_v29, val_main_c_4, val_main_v28, val_main_v27, val_main_c_3]
  rw [scale_ref]; rfl
theorem stage_layer3 : val_main_v53 (F := Ideal) x0 x1 x2 x3 x4 x5 x6
    = Cert.Mgcn.layer gR sR wit (val_main_v39 (F := Ideal) x0 x1 x2 x3 x4 x5 x6) x4 x5 x6 := by
  simp only [val_main_v53, val_main_v51, val_main_cst_8, val_main_v52, val_main_v50, val_main_v49, val_main_v48, val_main_v47, val_main_v46, val_main_v45, val_main_v44, val_main_v43, val_main_c_7, val_main_v42, val_main_v41, val_main_c_6]
  rw [scale_ref]; rfl

/-- Its mean table. -/
theorem stage_out : val_main_v56 (F := Ideal) x0 x1 x2 x3 x4 x5 x6 = Cert.Mgcn.out gR sR wit x0 x1 x2 x3 x4 x5 x6 := by
  simp only [val_main_v56, val_main_v55, val_main_cst_9, val_main_v54, val_main_v40, val_main_v26]
  rw [stage_layer3, stage_layer2, stage_layer1, stage_emb0]; rfl

/-- The first result: the user rows of the mean table. -/
theorem users_ref (c : Dev nD) : (res_main_v57 m c : FVec Ideal S100000x64 .f32)
    = Cert.Mgcn.users wit (Cert.Mgcn.out gR sR wit (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))) := by
  rw [val_main_v57_eq]
  simp only [val_main_v57]
  rw [stage_out]; rfl

/-- The second result: the item rows of the mean table. -/
theorem items_ref (c : Dev nD) : (res_main_v58 m c : FVec Ideal S50000x64 .f32)
    = Cert.Mgcn.items wit (Cert.Mgcn.out gR sR wit (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))) := by
  rw [val_main_v58_eq]
  simp only [val_main_v58]
  rw [stage_out]; rfl

end Cert.ReferenceIdeal.RefValue

end
-- ==== Proof.lean ====
/-
  The certificate of the embedding-propagation kernel against its jnp reference, over the extended reals.

  Both programs compute, from the item features, the user table, a weight matrix, a bias, two index vectors and a
  weight vector: the items projected (features · W + b), stacked under the users, every row divided by the larger of
  its Euclidean norm and a small constant; then three times the rows named by `cols` are gathered, scaled by `vals`
  and summed into the rows named by `rows`; the four tables are added, divided by four and cut into user rows and item
  rows. The kernel does the product, the normalisation, the scaling and the additions in eight tiled regions and
  leaves the gather and the scatter to the host; the reference does everything on the host. At the ideal instance a
  change of float format is the identity, a matrix product into a zero accumulator and the host's product are the
  same sum, and so are a lane sum and the host's sum; hence each region leaves its stage's function of its input
  arrays (Spec.lean, the Region modules), the reference's lines spell the same functions (RefOps.lean), and the two
  programs end with one and the same function of equal arguments (KernelValue.lean, RefValue.lean). No law of the
  extended reals beyond these readings is used, and the precondition is never opened.
-/
import proofs.«125836_j24747601560207_1_alg».proof.Defs
import proofs.«125836_j24747601560207_1_alg».proof.Proof.Gen.Kernel
import proofs.«125836_j24747601560207_1_alg».proof.Proof.Gen.Kernel.Frame
import proofs.«125836_j24747601560207_1_alg».proof.Proof.Gen.KernelIdeal
import proofs.«125836_j24747601560207_1_alg».proof.Proof.Gen.KernelIdeal.Frame
import proofs.«125836_j24747601560207_1_alg».proof.Proof.Gen.ReferenceIdeal
import proofs.«125836_j24747601560207_1_alg».proof.Proof.Gen.Pre_finite_inputs
import proofs.«125836_j24747601560207_1_alg».proof.Proof.Gen.ReferenceIdeal.Run
import proofs.«125836_j24747601560207_1_alg».proof.Proof.KernelRun
import proofs.«125836_j24747601560207_1_alg».proof.Proof.KernelValue
import proofs.«125836_j24747601560207_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two gather records and the two scatter records are the same dimension numbers. -/
theorem gather_eq : Cert.ReferenceIdeal.RefValue.gR = Cert.KernelIdeal.Thread.gK := rfl
theorem scatter_eq : Cert.ReferenceIdeal.RefValue.sR = Cert.KernelIdeal.Thread.sK := rfl

open Cert.KernelIdeal Cert.KernelIdeal.Gen Cert.KernelIdeal.Thread in
/-- Both programs end with the user rows and the item rows of the same mean table of their (equal) arguments. -/
theorem algebraic : Cert.algebraic_KernelIdeal_ReferenceIdeal := by
  intro m ρ m' ρ' _ hagree
  refine ⟨fun c => Cert.Mgcn.users wit (Cert.Mgcn.out gK sK wit (a0 m c) (a1 m c) (a2 m c) (a3 m c) (a4 m c) (a5 m c) (a6 m c)),
    fun c => Cert.Mgcn.items wit (Cert.Mgcn.out gK sK wit (a0 m c) (a1 m c) (a2 m c) (a3 m c) (a4 m c) (a5 m c) (a6 m c)), ?_, ?_⟩
  · refine (θ_run Cert.KernelIdeal.defs _ _).mono (fun r h c => ?_) (run_all (F := Ideal) m ρ)
    exact ⟨(h c _ (mem_uc main_v45 (by decide))).trans (users_eq m ρ c),
      (h c _ (mem_uc main_v46 (by decide))).trans (items_eq m ρ c),
      (h c _ (mem_uc main_arg0 (by decide))).trans (W17_main_arg0 m ρ c),
      (h c _ (mem_uc main_arg1 (by decide))).trans (W17_main_arg1 m ρ c),
      (h c _ (mem_uc main_arg2 (by decide))).trans (W17_main_arg2 m ρ c),
      (h c _ (mem_uc main_arg3 (by decide))).trans (W17_main_arg3 m ρ c),
      (h c _ (mem_uc main_arg4 (by decide))).trans (W17_main_arg4 m ρ c),
      (h c _ (mem_uc main_arg5 (by decide))).trans (W17_main_arg5 m ρ c),
      (h c _ (mem_uc main_arg6 (by decide))).trans (W17_main_arg6 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · refine (Cert.ReferenceIdeal.RefValue.users_ref m' c).trans ?_
      rw [(hagree c).1, (hagree c).2.1, (hagree c).2.2.1, (hagree c).2.2.2.1, (hagree c).2.2.2.2.1, (hagree c).2.2.2.2.2.1,
        (hagree c).2.2.2.2.2.2, gather_eq, scatter_eq]
    · refine (Cert.ReferenceIdeal.RefValue.items_ref m' c).trans ?_
      rw [(hagree c).1, (hagree c).2.1, (hagree c).2.2.1, (hagree c).2.2.2.1, (hagree c).2.2.2.2.1, (hagree c).2.2.2.2.2.1,
        (hagree c).2.2.2.2.2.2, gather_eq, scatter_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
